-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S8192 : Shape := ⟨1, ![8192]⟩
abbrev S256x4096 : Shape := ⟨2, ![256, 4096]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_

variable [Facts]

def fn {F : FTy → Type} [FloatOps F] (main_arg0 : FVec F S128x4096 .f32) (main_arg1 : IVec S8192 32) (main_arg2 : FVec F S256x4096 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S256x4096 .f32 := Host.absf main_arg2
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  main_v8
-- ==== Kernel.lean ====
abbrev S128x4096 : Shape := ⟨2, ![128, 4096]⟩
abbrev S8192 : Shape := ⟨1, ![8192]⟩
abbrev S256x4096 : Shape := ⟨2, ![256, 4096]⟩
abbrev S128x256 : Shape := ⟨2, ![128, 256]⟩
abbrev S128x1024 : Shape := ⟨2, ![128, 1024]⟩
abbrev S128x128 : Shape := ⟨2, ![128, 128]⟩
abbrev S1x8192 : Shape := ⟨2, ![1, 8192]⟩
abbrev S128x8192 : Shape := ⟨2, ![128, 8192]⟩
abbrev S1x2048 : Shape := ⟨2, ![1, 2048]⟩
abbrev S128x2048 : Shape := ⟨2, ![128, 2048]⟩
abbrev S256x2048 : Shape := ⟨2, ![256, 2048]⟩

abbrev nBuf : Space → Nat
  | .hbm => 6
  | .vmem => 12
  | .smem => 0
  | _ => 0

abbrev bufTy : (tb : Table) → Fin (tcTables nBuf tb) → BufTy
  | .hbm, ⟨0, _⟩ => ⟨S128x4096, .f32⟩
  | .hbm, ⟨1, _⟩ => ⟨S8192, .i32⟩
  | .hbm, ⟨2, _⟩ => ⟨S256x4096, .f32⟩
  | .hbm, ⟨3, _⟩ => ⟨S128x256, .bf16⟩
  | .hbm, ⟨4, _⟩ => ⟨S1x8192, .i32⟩
  | .hbm, ⟨5, _⟩ => ⟨S128x8192, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x128, .bf16⟩
  | .local _ .vmem, ⟨5, _⟩ => ⟨S128x128, .bf16⟩
  | .local _ .vmem, ⟨6, _⟩ => ⟨S128x128, .f32⟩
  | .local _ .vmem, ⟨7, _⟩ => ⟨S128x256, .bf16⟩
  | .local _ .vmem, ⟨8, _⟩ => ⟨S1x2048, .i32⟩
  | .local _ .vmem, ⟨9, _⟩ => ⟨S1x2048, .i32⟩
  | .local _ .vmem, ⟨10, _⟩ => ⟨S128x2048, .f32⟩
  | .local _ .vmem, ⟨11, _⟩ => ⟨S128x2048, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  packedbf16_S128x128_S128x128_0_0 : (Rect.unit (s := S128x128) ![0, 0] S128x128.size inb_S128x128_S128x128_0_0).PackedRows (EltTy.packing .bf16)
  shapeCasts_S8192_S1x8192 : S8192.ShapeCasts S1x8192
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S256x2048_d0_w32 : S256x2048.Iotas .tc 32 [0]
  broadcasts_S1x2048_S256x2048 : S1x2048.Broadcasts S256x2048
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x2048_S128x2048_0_0 : ∀ a, (![0, 0] : Fin 2 → Nat) a + S128x2048.size a ≤ S128x2048.size a
  h_S128x2048 : 0 < S128x2048.numel
  dot_S128x1024_S128x1024_S128x128_1_1_0_0_n_n_wf : DotDims.WF S128x1024 S128x1024 S128x128 [1] [1] [0] [0] [] []
  dot_S128x256_S256x2048_S128x2048_1_0_0_1_n_n_wf : DotDims.WF S128x256 S256x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x4096.size a
  hwx0_0 : ∀ i : grid0.Coords, EltTy.bits .f32 = 32 ∨ (Rect.block (s := S128x4096) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S256x4096.size a
  hwx0_1 : ∀ i : grid0.Coords, EltTy.bits .f32 = 32 ∨ (Rect.block (s := S256x4096) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x256.size a
  hwx0_2 : ∀ i : grid0.Coords, EltTy.bits .bf16 = 32 ∨ (Rect.block (s := S128x256) S128x128.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S128x256.size a
  hwx1_0 : ∀ i : grid1.Coords, EltTy.bits .bf16 = 32 ∨ (Rect.block (s := S128x256) S128x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x8192.size a
  hwx1_1 : ∀ i : grid1.Coords, EltTy.bits .i32 = 32 ∨ (Rect.block (s := S1x8192) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S128x8192.size a
  hwx1_2 : ∀ i : grid1.Coords, EltTy.bits .f32 = 32 ∨ (Rect.block (s := S128x8192) S128x2048.size (cc1_transform_2 i) (hinb1_2 i)).WholeWords (EltTy.packing .f32)

variable [Facts₀]

def dot_S128x1024_S128x1024_S128x128_1_1_0_0_n_n : DotDims S128x1024 S128x1024 S128x128 where
  lhsContracting := [1]
  rhsContracting := [1]
  lhsNonContracting := [0]
  rhsNonContracting := [0]
  lhsBatch := []
  rhsBatch := []
  wf := dot_S128x1024_S128x1024_S128x128_1_1_0_0_n_n_wf
def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S128x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S128x4096 : Shape := ⟨2, ![128, 4096]⟩
abbrev S8192 : Shape := ⟨1, ![8192]⟩
abbrev S256x4096 : Shape := ⟨2, ![256, 4096]⟩
abbrev S_ : Shape := ⟨0, ![]⟩
abbrev S8192x1 : Shape := ⟨2, ![8192, 1]⟩
abbrev S8192x4096 : Shape := ⟨2, ![8192, 4096]⟩
abbrev S128x8192 : Shape := ⟨2, ![128, 8192]⟩

abbrev nBuf : Space → Nat
  | .hbm => 46
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S8192, .i32⟩
  | .hbm, ⟨2, _⟩ => ⟨S256x4096, .f32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S128x8192, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_cst_5 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_7 : Ref sig .tc := ⟨.hbm, 34, rfl⟩
abbrev main_v20 : Ref sig .tc := ⟨.hbm, 35, rfl⟩
abbrev main_v21 : Ref sig .tc := ⟨.hbm, 36, rfl⟩
abbrev main_c_8 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  gather_S256x4096_S8192x1_S8192x4096_1_0_n_n_0_1_14096_wf : GatherDims.WF S256x4096 S8192x1 S8192x4096 [1] [0] [] [0] [] 1 ![1, 4096]
  dot_S128x4096_S8192x4096_S128x8192_1_1_0_0_n_n_wf : DotDims.WF S128x4096 S8192x4096 S128x8192 [1] [1] [0] [0] [] []

variable [Facts₀]

def gather_S256x4096_S8192x1_S8192x4096_1_0_n_n_0_1_14096 : GatherDims S256x4096 S8192x1 S8192x4096 where
  offsetDims := [1]
  collapsedSliceDims := [0]
  operandBatchingDims := []
  startIndicesBatchingDims := []
  startIndexMap := [0]
  indexVectorDim := 1
  sliceSizes := ![1, 4096]
  wf := gather_S256x4096_S8192x1_S8192x4096_1_0_n_n_0_1_14096_wf
def dot_S128x4096_S8192x4096_S128x8192_1_1_0_0_n_n : DotDims S128x4096 S8192x4096 S128x8192 where
  lhsContracting := [1]
  rhsContracting := [1]
  lhsNonContracting := [0]
  rhsNonContracting := [0]
  lhsBatch := []
  rhsBatch := []
  wf := dot_S128x4096_S8192x4096_S128x8192_1_1_0_0_n_n_wf

class Facts : Prop extends Facts₀ where

variable [Facts]
-- ==== Proof.K.Data0.lean ====
/-
  The projection region (x · basisᵀ accumulated over four column blocks of 1024) as proof data, at the buffer
  contents `V` the region is entered with. Grid point t = 4·i + k: basis-row block i (two of 128 rows), column
  block k (four of 1024). The scratch accumulator is zeroed at k = 0, takes the block product at every k, and is
  rounded into the output block at k = 3, the only points that write the output back.
-/
import proofs.«405978_j53876069761217_3_alg».proof.Proof.Gen.Kernel.Launch
import proofs.«405978_j53876069761217_3_alg».proof.Proof.Gen.Kernel.Skeleton
import proofs.«405978_j53876069761217_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator as a memref, and the five scoped buffers of the other region that ride along. -/
abbrev scM0 : Memref sig .tc .vmem S128x128 .f32 := Memref.whole cc0_scratch0

/-! ## The accumulator, point by point -/

/-- What the scratch accumulator holds after the body at position `n`: at a column block k = 0 the block product
    added to zero, at a later one added to what the point before left. -/
def acc0 (c : Dev nD) : (n : ℕ) → n < cfg0.N → Vec F S128x128 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a first column block the accumulator restarts from zero. -/
theorem acc0_reset (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

/-- At a later column block it adds to what the point before left. -/
theorem acc0_step (c : Dev nD) (t : Fin cfg0.N) (h : ¬t.val % 4 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant: the accumulator's contents carried between points -/

/-- The other region's scoped staging buffers, each whole at some contents: untouched here. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The class invariant with the accumulator as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; rfl

/-- Before position `n`: at the region's entry every scoped buffer at anything; afterwards the accumulator at what
    the point before left. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc0 V c n hn) ∗ others0 c) ∗ (∃ r, prngReg c r)) := rfl

theorem PhiS_pos (c : Dev nD) (n : ℕ) (h : n ≤ cfg0.N) (hz : n ≠ 0) :
    PhiS V c n h = iprop(iprop(owns (c : Thread nD τ) scM0 fullShare (acc0 V c (n - 1) (by omega)) ∗ others0 c) ∗ (∃ r, prngReg c r)) := by
  cases n with
  | zero => exact absurd rfl hz
  | succ n => rfl

/-! ## The proof data -/

/-- The region's proof data on core `c`: the arrays as found; after the body each input's buffer at its block and
    the output's at the rounded accumulator (read only where the block is written back, k = 3); the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

end Cert.Kernel.Hand

end
-- ==== Proof.K.Region0.lean ====
/-
  The projection region runs at every grid point. By the column block k of the point the body is in one of three
  cases: k = 0 zeroes the accumulator before adding the block product; k = 1, 2 add to what the point before left;
  k = 3 adds and then rounds the accumulator into the output block, the only points whose block is written back.
-/
import proofs.«405978_j53876069761217_3_alg».proof.Proof.Gen.Kernel.Launch
import proofs.«405978_j53876069761217_3_alg».proof.Proof.Gen.Kernel.Skeleton
import proofs.«405978_j53876069761217_3_alg».proof.Proof.Gen.Kernel.Points
import proofs.«405978_j53876069761217_3_alg».proof.Proof.K.Data0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks at every point -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's two conditions, decided over the grid -/

/-- The first condition: the column block is the first, k = 0. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- The second: the column block is the last, k = 3. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the output window is idle -/

theorem live0_0 : ∀ t : Fin cfg0.N, cfg0.idle 0 (grid0.coords t) = false := by decide +kernel
theorem live0_1 : ∀ t : Fin cfg0.N, cfg0.idle 1 (grid0.coords t) = false := by decide +kernel
/-- Off the last column block the body stores nothing into the output's buffer, -/
theorem idle0_2 : ∀ t : Fin cfg0.N, ¬isLast (grid0.coords t) → cfg0.idle 2 (grid0.coords t) = true := by decide +kernel
/-- and the block is not written back there; -/
theorem noFlush0_2 : ∀ t : Fin cfg0.N, ¬isLast (grid0.coords t) → (cfg0.win 2).flush t = false := by decide +kernel
/-- at the last column block it stores the whole block. -/
theorem live0_2 : ∀ t : Fin cfg0.N, isLast (grid0.coords t) → cfg0.idle 2 (grid0.coords t) = false := by decide +kernel

/-! ## The body's triple, case by case -/

theorem hz2 : (![0, 0] : Fin 2 → Nat) = fun _ => 0 := funext fun a => by fin_cases a <;> rfl

set_option maxHeartbeats 2000000 in
/-- k = 0: whatever the accumulator held, it ends at the block product added to zero; the output's buffer is not touched. -/
theorem sound_first (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S128x128 .bf16) (harg4 : arg4.IsWhole) (arg5 : Memref sig .tc .vmem S128x128 .f32) (harg5 : arg5.IsWhole)
    (h1 : isFirst i) (h2 : ¬isLast i) (x0 x1 : Vec F S128x1024 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 x0 x1 (k0_pay1 (F := F)))) -∗ K ⟨⟩))
      ⊢ wp frame (wpE (defs₀ (F := F)) Variants.none c none) E (cc0__project_kernel i arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%ds, %fs, -, HS⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (fun y => ⟨_, List.Mem.head _, View.mem_set_unit_zero hz2 inb_S128x128_S128x128_0_0 y⟩),
    View.canon_cons_unit_zero hz2]
  simp only [View.readAt_eq_ld, View.ld_unit_zero (S := S128x1024) hz2, View.readCov_unit_zero (S := S128x128) _ hz2]

set_option maxHeartbeats 2000000 in
/-- k = 1, 2: the accumulator takes the block product on top of what it held; the output's buffer is not touched. -/
theorem sound_mid (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S128x128 .bf16) (harg4 : arg4.IsWhole) (arg5 : Memref sig .tc .vmem S128x128 .f32) (harg5 : arg5.IsWhole)
    (h1 : ¬isFirst i) (h2 : ¬isLast i) (x0 x1 : Vec F S128x1024 .f32) (xs : Vec F S128x128 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k0_pay2 x0 x1 xs)) -∗ K ⟨⟩))
      ⊢ wp frame (wpE (defs₀ (F := F)) Variants.none c none) E (cc0__project_kernel i arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%fs, %hfs, HS⟩, Hk⟩
  subst hf0; subst hf1; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (fun y => ⟨_, List.Mem.head _, View.mem_set_unit_zero hz2 inb_S128x128_S128x128_0_0 y⟩),
    View.canon_unit_zero hz2]
  simp only [View.readAt_eq_ld, View.ld_unit_zero (S := S128x1024) hz2, View.ld_unit_zero (S := S128x128) hz2,
    View.readCov_unit_zero (S := S128x128) _ hz2]

set_option maxHeartbeats 2000000 in
/-- k = 3: the accumulator takes the block product and the output's buffer the rounding of the sum. -/
theorem sound_last (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S128x128 .bf16) (harg4 : arg4.IsWhole) (arg5 : Memref sig .tc .vmem S128x128 .f32) (harg5 : arg5.IsWhole)
    (h1 : ¬isFirst i) (h2 : isLast i) (x0 x1 : Vec F S128x1024 .f32) (xs : Vec F S128x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E (cc0__project_kernel i arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (fun y => ⟨_, List.Mem.head _, View.mem_set_unit_zero hz2 inb_S128x128_S128x128_0_0 y⟩),
      View.canon_unit_zero hz2]
    simp only [View.readAt_eq_ld, View.ld_unit_zero (S := S128x1024) hz2, View.ld_unit_zero (S := S128x128) hz2,
      View.readCov_unit_zero (S := S128x128) _ hz2]
  iexists _; isplitr
  swap; · iexact HS
  ipureintro
  sl_unfold_words
  rw [View.read_writes_eq_canon _ _ _ (fun y => ⟨_, List.Mem.head _, View.mem_set_unit_zero hz2 inb_S128x128_S128x128_0_0 y⟩),
    View.canon_unit_zero hz2]
  simp only [View.readAt_eq_ld, View.ld_unit_zero (S := S128x1024) hz2, View.ld_unit_zero (S := S128x128) hz2,
    View.readCov_unit_zero (S := S128x128) _ hz2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: each input's buffer as found, the output's at the rounded accumulator where the body stores
    it (k = 3) and as found elsewhere. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The column block decides the case; the invariant hands the body the accumulator at what
    the point before left (at anything at the very first point) and takes it back at this point's contents; the
    other region's scoped buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  have hN : t.val < 8 := lt_of_lt_of_eq t.isLt (show cfg0.N = 8 from N_0)
  by_cases h0 : t.val % 4 = 0
  · have hF : isFirst (grid0.coords t) := (isFirst_iff t).mpr h0
    have hL : ¬isLast (grid0.coords t) := fun h => by have := (isLast_iff t).mp h; omega
    rw [Dat.leavesExact_idle (dat0 V c) 2 t (idle0_2 t hL) (noFlush0_2 t hL)]
    rw [acc0_reset V c t h0]
    by_cases hz : t.val = 0
    · rw [PhiS_castSucc V c t, PhiS_zero V c _ _ hz, PhiA0_eq]
      iintro ⟨⟨⟨HS, Hoth⟩, Hg⟩, Ho, ⟨%d0, H0⟩, ⟨%d1, H1⟩, H2⟩
      iapply (sound_first c Set.univ (grid0.coords t) _ _ _ _ _ _ _ _ hF hL (iblk0 V c 0 t) (iblk0 V c 1 t) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [PhiS_castSucc V c t, PhiS_pos V c _ _ hz]
      iintro ⟨⟨⟨HS, Hoth⟩, Hg⟩, Ho, ⟨%d0, H0⟩, ⟨%d1, H1⟩, H2⟩
      iapply (sound_first c Set.univ (grid0.coords t) _ _ _ _ _ _ _ _ hF hL (iblk0 V c 0 t) (iblk0 V c 1 t) _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hF : ¬isFirst (grid0.coords t) := fun h => h0 ((isFirst_iff t).mp h)
    have hz : t.val ≠ 0 := fun h => h0 (by rw [h])
    rw [acc0_step V c t h0]
    rw [PhiS_castSucc V c t, PhiS_pos V c _ _ hz]
    by_cases h3 : t.val % 4 = 3
    · have hL : isLast (grid0.coords t) := (isLast_iff t).mpr h3
      rw [show (dat0 V c).leavesExact 2 t = owns (c : Thread nD τ) (st0_2 t) fullShare ((dat0 V c).after 2 t) from by
        unfold Dat.leavesExact; rw [live0_2 t hL], after0_2, acc0_step V c t h0]
      iintro ⟨⟨⟨HS, Hoth⟩, Hg⟩, Ho, ⟨%d0, H0⟩, ⟨%d1, H1⟩, ⟨%d2, H2⟩⟩
      iapply (sound_last c Set.univ (grid0.coords t) _ _ _ _ _ _ _ _ hF hL (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hL : ¬isLast (grid0.coords t) := fun h => h3 ((isLast_iff t).mp h)
      rw [Dat.leavesExact_idle (dat0 V c) 2 t (idle0_2 t hL) (noFlush0_2 t hL)]
      iintro ⟨⟨⟨HS, Hoth⟩, Hg⟩, Ho, ⟨%d0, H0⟩, ⟨%d1, H1⟩, H2⟩
      iapply (sound_mid c Set.univ (grid0.coords t) _ _ _ _ _ _ _ _ hF hL (iblk0 V c 0 t) (iblk0 V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Data1.lean ====
/-
  The decode-and-select region as proof data, at the buffer contents `V` the region is entered with. Grid point t
  is the block of 2048 output columns; the projection (128 × 256) is one block fetched once and resident, the codes
  arrive 2048 at a time, and the body stores the whole 128 × 2048 output block from the two.
-/
import proofs.«405978_j53876069761217_3_alg».proof.Proof.Gen.Kernel.Launch
import proofs.«405978_j53876069761217_3_alg».proof.Proof.Gen.Kernel.Skeleton
import proofs.«405978_j53876069761217_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data on core `c`: the arrays as found; after the body each input's buffer at its block and
    the output's at the body's one store, the decoded one-hot product of the projection block and the code block;
    the class invariant (scoped rest and generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 1 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 1 t) (iblk1 V c 0 t) := by dsimp only [dat1]

end Cert.Kernel.Hand

end
-- ==== Proof.K.Region1.lean ====
/-
  The decode-and-select region runs at every grid point: from the projection block and the code block in their
  staging buffers the body stores the whole output block, reading nothing it carries from point to point.
-/
import proofs.«405978_j53876069761217_3_alg».proof.Proof.Gen.Kernel.Launch
import proofs.«405978_j53876069761217_3_alg».proof.Proof.Gen.Kernel.Skeleton
import proofs.«405978_j53876069761217_3_alg».proof.Proof.Gen.Kernel.Points
import proofs.«405978_j53876069761217_3_alg».proof.Proof.K.Data1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks at every point -/

/-- The projection window (one block, fetched at the first point only) holds that block at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The code window (fetched at every point) holds its block. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's triple -/

theorem hz2 : (![0, 0] : Fin 2 → Nat) = fun _ => 0 := funext fun a => by fin_cases a <;> rfl

set_option maxHeartbeats 1000000 in
/-- On whole staging memrefs, the projection's and the codes' at read contents and the output's at anything, the body
    runs to the continuation holding the inputs' as they were and the output's at the decoded product of the two:
    its one store covers the block, and its loads read the blocks whole. -/
theorem sound_kernel1 (c : Dev nD) (E : Set ℕ) (i : grid1.Coords)
    (arg1 : Memref sig .tc .vmem S128x256 .bf16) (harg1 : arg1.IsWhole) (arg2 : Memref sig .tc .vmem S1x2048 .i32) (harg2 : arg2.IsWhole)
    (arg3 : Memref sig .tc .vmem S128x2048 .f32) (harg3 : arg3.IsWhole)
    (x0 : Vec F S128x256 .bf16) (x1 : Vec F S1x2048 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x1 x0)) -∗ K ⟨⟩))
      ⊢ wp frame (wpE (defs₀ (F := F)) Variants.none c none) E (cc1__decode_matmul_kernel i arg1 harg1 arg2 harg2 arg3 harg3) K := by
  simp only [cc1__decode_matmul_kernel_eq_skeleton]; unfold cc1__decode_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2 inb_S128x2048_S128x2048_0_0 y⟩),
    View.canon_unit_zero hz2]
  simp only [View.readAt_eq_ld, View.ld_unit_zero (S := S1x2048) hz2, View.ld_unit_zero (S := S128x256) hz2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of @main: the projection region, the reshape of the codes on the host, the decode-and-select
  region. Between two items every unscoped buffer of the core is held at contents named by a fold through @main
  from the launch memory: a region's arrays at what its write-backs leave, a host line's result at its value.
  One launch over the three items gives, at the end, the result array at the second region's written-back contents
  and every argument array as launched.
-/
import proofs.«405978_j53876069761217_3_alg».proof.Proof.Gen.Kernel.Launch
import proofs.«405978_j53876069761217_3_alg».proof.Proof.Gen.Kernel.Skeleton
import proofs.«405978_j53876069761217_3_alg».proof.Proof.Gen.Kernel.Points
import proofs.«405978_j53876069761217_3_alg».proof.Proof.K.Region0
import proofs.«405978_j53876069761217_3_alg».proof.Proof.K.Region1
import proofs.«405978_j53876069761217_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (the projection region's entry). -/
abbrev W0 : Dev nD → Valuation τ sig (Elt F) := fun c b => m (c, b)
abbrev V0 : (c : Dev nD) → (b : Ref sig .tc) → Buf (Elt F) ((c : Thread nD τ).loc b) := fun c b => W0 m c b
/-- At the projection region's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host reshape (the decode region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At the decode region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched: the reshape writes only its own result, a region only its output's array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := (W1_arr m c 1).trans (((dat0 (V0 m) c).arrAt_in 1 rfl _).trans (A_eq0 (V0 m) c 1))
    _ = m ((c : Thread nD τ).loc main_arg2) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- After the last point the accumulator's named contents are forgotten: the class invariant again. -/
theorem Phi_last (V : (c : Dev nD) → (b : Ref sig .tc) → Buf (Elt F) ((c : Thread nD τ).loc b)) (c : Dev nD) :
    (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS, Ho⟩, Hg⟩
  isplitl [HS Ho]
  · isplitl [HS]; · iexists _; iexact HS
    iexact Ho
  iexact Hg

/-! ## The regions as segments -/

set_option backward.isDefEq.respectTransparency.types false in
/-- Region 0 over the thread state: entered with every unscoped buffer at `W0`, left with them at `W1`. Its arrays
    are split out of the unscoped buffers and put back at what the write-backs leave; the generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_last (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its arrays
    are split out of the unscoped buffers and put back at what the write-backs leave; the generator register goes into
    the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    the final memory holds the result array at what the decode region's write-backs leave and each argument array
    as launched. -/
theorem run_all (ρ : Dev nD → PrngReg) : θ_run defs (onTc (τ := τ) (main (F := F))) ⟨m, fun _ => 0, ρ⟩ (fun r => ∀ c : Dev nD,
      r.2.mem ((c.tc : Thread nD τ).loc main_v2) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_arr m c 2),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

end Cert.Kernel.Hand

end
-- ==== Proof.KI.Data0.lean ====
/-
  The projection region (x · basisᵀ accumulated over four column blocks of 1024) as proof data, at the buffer
  contents `V` the region is entered with. Grid point t = 4·i + k: basis-row block i (two of 128 rows), column
  block k (four of 1024). The scratch accumulator is zeroed at k = 0, takes the block product at every k, and is
  rounded into the output block at k = 3, the only points that write the output back.
-/
import proofs.«405978_j53876069761217_3_alg».proof.Proof.Gen.KernelIdeal.Launch
import proofs.«405978_j53876069761217_3_alg».proof.Proof.Gen.KernelIdeal.Skeleton
import proofs.«405978_j53876069761217_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator as a memref, and the five scoped buffers of the other region that ride along. -/
abbrev scM0 : Memref sig .tc .vmem S128x128 .f32 := Memref.whole cc0_scratch0

/-! ## The accumulator, point by point -/

/-- What the scratch accumulator holds after the body at position `n`: at a column block k = 0 the block product
    added to zero, at a later one added to what the point before left. -/
def acc0 (c : Dev nD) : (n : ℕ) → n < cfg0.N → Vec F S128x128 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a first column block the accumulator restarts from zero. -/
theorem acc0_reset (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

/-- At a later column block it adds to what the point before left. -/
theorem acc0_step (c : Dev nD) (t : Fin cfg0.N) (h : ¬t.val % 4 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant: the accumulator's contents carried between points -/

/-- The other region's scoped staging buffers, each whole at some contents: untouched here. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The class invariant with the accumulator as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; rfl

/-- Before position `n`: at the region's entry every scoped buffer at anything; afterwards the accumulator at what
    the point before left. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc0 V c n hn) ∗ others0 c) ∗ (∃ r, prngReg c r)) := rfl

theorem PhiS_pos (c : Dev nD) (n : ℕ) (h : n ≤ cfg0.N) (hz : n ≠ 0) :
    PhiS V c n h = iprop(iprop(owns (c : Thread nD τ) scM0 fullShare (acc0 V c (n - 1) (by omega)) ∗ others0 c) ∗ (∃ r, prngReg c r)) := by
  cases n with
  | zero => exact absurd rfl hz
  | succ n => rfl

/-! ## The proof data -/

/-- The region's proof data on core `c`: the arrays as found; after the body each input's buffer at its block and
    the output's at the rounded accumulator (read only where the block is written back, k = 3); the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

end Cert.KernelIdeal.Hand

end
-- ==== Proof.KI.Region0.lean ====
/-
  The projection region runs at every grid point. By the column block k of the point the body is in one of three
  cases: k = 0 zeroes the accumulator before adding the block product; k = 1, 2 add to what the point before left;
  k = 3 adds and then rounds the accumulator into the output block, the only points whose block is written back.
-/
import proofs.«405978_j53876069761217_3_alg».proof.Proof.Gen.KernelIdeal.Launch
import proofs.«405978_j53876069761217_3_alg».proof.Proof.Gen.KernelIdeal.Skeleton
import proofs.«405978_j53876069761217_3_alg».proof.Proof.Gen.KernelIdeal.Points
import proofs.«405978_j53876069761217_3_alg».proof.Proof.KI.Data0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks at every point -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's two conditions, decided over the grid -/

/-- The first condition: the column block is the first, k = 0. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- The second: the column block is the last, k = 3. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the output window is idle -/

theorem live0_0 : ∀ t : Fin cfg0.N, cfg0.idle 0 (grid0.coords t) = false := by decide +kernel
theorem live0_1 : ∀ t : Fin cfg0.N, cfg0.idle 1 (grid0.coords t) = false := by decide +kernel
/-- Off the last column block the body stores nothing into the output's buffer, -/
theorem idle0_2 : ∀ t : Fin cfg0.N, ¬isLast (grid0.coords t) → cfg0.idle 2 (grid0.coords t) = true := by decide +kernel
/-- and the block is not written back there; -/
theorem noFlush0_2 : ∀ t : Fin cfg0.N, ¬isLast (grid0.coords t) → (cfg0.win 2).flush t = false := by decide +kernel
/-- at the last column block it stores the whole block. -/
theorem live0_2 : ∀ t : Fin cfg0.N, isLast (grid0.coords t) → cfg0.idle 2 (grid0.coords t) = false := by decide +kernel

/-! ## The body's triple, case by case -/

theorem hz2 : (![0, 0] : Fin 2 → Nat) = fun _ => 0 := funext fun a => by fin_cases a <;> rfl

set_option maxHeartbeats 2000000 in
/-- k = 0: whatever the accumulator held, it ends at the block product added to zero; the output's buffer is not touched. -/
theorem sound_first (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S128x128 .bf16) (harg4 : arg4.IsWhole) (arg5 : Memref sig .tc .vmem S128x128 .f32) (harg5 : arg5.IsWhole)
    (h1 : isFirst i) (h2 : ¬isLast i) (x0 x1 : Vec F S128x1024 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 x0 x1 (k0_pay1 (F := F)))) -∗ K ⟨⟩))
      ⊢ wp frame (wpE (defs₀ (F := F)) Variants.none c none) E (cc0__project_kernel i arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%ds, %fs, -, HS⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (fun y => ⟨_, List.Mem.head _, View.mem_set_unit_zero hz2 inb_S128x128_S128x128_0_0 y⟩),
    View.canon_cons_unit_zero hz2]
  simp only [View.readAt_eq_ld, View.ld_unit_zero (S := S128x1024) hz2, View.readCov_unit_zero (S := S128x128) _ hz2]

set_option maxHeartbeats 2000000 in
/-- k = 1, 2: the accumulator takes the block product on top of what it held; the output's buffer is not touched. -/
theorem sound_mid (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S128x128 .bf16) (harg4 : arg4.IsWhole) (arg5 : Memref sig .tc .vmem S128x128 .f32) (harg5 : arg5.IsWhole)
    (h1 : ¬isFirst i) (h2 : ¬isLast i) (x0 x1 : Vec F S128x1024 .f32) (xs : Vec F S128x128 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k0_pay2 x0 x1 xs)) -∗ K ⟨⟩))
      ⊢ wp frame (wpE (defs₀ (F := F)) Variants.none c none) E (cc0__project_kernel i arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%fs, %hfs, HS⟩, Hk⟩
  subst hf0; subst hf1; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (fun y => ⟨_, List.Mem.head _, View.mem_set_unit_zero hz2 inb_S128x128_S128x128_0_0 y⟩),
    View.canon_unit_zero hz2]
  simp only [View.readAt_eq_ld, View.ld_unit_zero (S := S128x1024) hz2, View.ld_unit_zero (S := S128x128) hz2,
    View.readCov_unit_zero (S := S128x128) _ hz2]

set_option maxHeartbeats 2000000 in
/-- k = 3: the accumulator takes the block product and the output's buffer the rounding of the sum. -/
theorem sound_last (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S128x128 .bf16) (harg4 : arg4.IsWhole) (arg5 : Memref sig .tc .vmem S128x128 .f32) (harg5 : arg5.IsWhole)
    (h1 : ¬isFirst i) (h2 : isLast i) (x0 x1 : Vec F S128x1024 .f32) (xs : Vec F S128x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E (cc0__project_kernel i arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (fun y => ⟨_, List.Mem.head _, View.mem_set_unit_zero hz2 inb_S128x128_S128x128_0_0 y⟩),
      View.canon_unit_zero hz2]
    simp only [View.readAt_eq_ld, View.ld_unit_zero (S := S128x1024) hz2, View.ld_unit_zero (S := S128x128) hz2,
      View.readCov_unit_zero (S := S128x128) _ hz2]
  iexists _; isplitr
  swap; · iexact HS
  ipureintro
  sl_unfold_words
  rw [View.read_writes_eq_canon _ _ _ (fun y => ⟨_, List.Mem.head _, View.mem_set_unit_zero hz2 inb_S128x128_S128x128_0_0 y⟩),
    View.canon_unit_zero hz2]
  simp only [View.readAt_eq_ld, View.ld_unit_zero (S := S128x1024) hz2, View.ld_unit_zero (S := S128x128) hz2,
    View.readCov_unit_zero (S := S128x128) _ hz2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: each input's buffer as found, the output's at the rounded accumulator where the body stores
    it (k = 3) and as found elsewhere. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The column block decides the case; the invariant hands the body the accumulator at what
    the point before left (at anything at the very first point) and takes it back at this point's contents; the
    other region's scoped buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  have hN : t.val < 8 := lt_of_lt_of_eq t.isLt (show cfg0.N = 8 from N_0)
  by_cases h0 : t.val % 4 = 0
  · have hF : isFirst (grid0.coords t) := (isFirst_iff t).mpr h0
    have hL : ¬isLast (grid0.coords t) := fun h => by have := (isLast_iff t).mp h; omega
    rw [Dat.leavesExact_idle (dat0 V c) 2 t (idle0_2 t hL) (noFlush0_2 t hL)]
    rw [acc0_reset V c t h0]
    by_cases hz : t.val = 0
    · rw [PhiS_castSucc V c t, PhiS_zero V c _ _ hz, PhiA0_eq]
      iintro ⟨⟨⟨HS, Hoth⟩, Hg⟩, Ho, ⟨%d0, H0⟩, ⟨%d1, H1⟩, H2⟩
      iapply (sound_first c Set.univ (grid0.coords t) _ _ _ _ _ _ _ _ hF hL (iblk0 V c 0 t) (iblk0 V c 1 t) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [PhiS_castSucc V c t, PhiS_pos V c _ _ hz]
      iintro ⟨⟨⟨HS, Hoth⟩, Hg⟩, Ho, ⟨%d0, H0⟩, ⟨%d1, H1⟩, H2⟩
      iapply (sound_first c Set.univ (grid0.coords t) _ _ _ _ _ _ _ _ hF hL (iblk0 V c 0 t) (iblk0 V c 1 t) _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hF : ¬isFirst (grid0.coords t) := fun h => h0 ((isFirst_iff t).mp h)
    have hz : t.val ≠ 0 := fun h => h0 (by rw [h])
    rw [acc0_step V c t h0]
    rw [PhiS_castSucc V c t, PhiS_pos V c _ _ hz]
    by_cases h3 : t.val % 4 = 3
    · have hL : isLast (grid0.coords t) := (isLast_iff t).mpr h3
      rw [show (dat0 V c).leavesExact 2 t = owns (c : Thread nD τ) (st0_2 t) fullShare ((dat0 V c).after 2 t) from by
        unfold Dat.leavesExact; rw [live0_2 t hL], after0_2, acc0_step V c t h0]
      iintro ⟨⟨⟨HS, Hoth⟩, Hg⟩, Ho, ⟨%d0, H0⟩, ⟨%d1, H1⟩, ⟨%d2, H2⟩⟩
      iapply (sound_last c Set.univ (grid0.coords t) _ _ _ _ _ _ _ _ hF hL (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hL : ¬isLast (grid0.coords t) := fun h => h3 ((isLast_iff t).mp h)
      rw [Dat.leavesExact_idle (dat0 V c) 2 t (idle0_2 t hL) (noFlush0_2 t hL)]
      iintro ⟨⟨⟨HS, Hoth⟩, Hg⟩, Ho, ⟨%d0, H0⟩, ⟨%d1, H1⟩, H2⟩
      iapply (sound_mid c Set.univ (grid0.coords t) _ _ _ _ _ _ _ _ hF hL (iblk0 V c 0 t) (iblk0 V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Data1.lean ====
/-
  The decode-and-select region as proof data, at the buffer contents `V` the region is entered with. Grid point t
  is the block of 2048 output columns; the projection (128 × 256) is one block fetched once and resident, the codes
  arrive 2048 at a time, and the body stores the whole 128 × 2048 output block from the two.
-/
import proofs.«405978_j53876069761217_3_alg».proof.Proof.Gen.KernelIdeal.Launch
import proofs.«405978_j53876069761217_3_alg».proof.Proof.Gen.KernelIdeal.Skeleton
import proofs.«405978_j53876069761217_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data on core `c`: the arrays as found; after the body each input's buffer at its block and
    the output's at the body's one store, the decoded one-hot product of the projection block and the code block;
    the class invariant (scoped rest and generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 1 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 1 t) (iblk1 V c 0 t) := by dsimp only [dat1]

end Cert.KernelIdeal.Hand

end
-- ==== Proof.KI.Region1.lean ====
/-
  The decode-and-select region runs at every grid point: from the projection block and the code block in their
  staging buffers the body stores the whole output block, reading nothing it carries from point to point.
-/
import proofs.«405978_j53876069761217_3_alg».proof.Proof.Gen.KernelIdeal.Launch
import proofs.«405978_j53876069761217_3_alg».proof.Proof.Gen.KernelIdeal.Skeleton
import proofs.«405978_j53876069761217_3_alg».proof.Proof.Gen.KernelIdeal.Points
import proofs.«405978_j53876069761217_3_alg».proof.Proof.KI.Data1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks at every point -/

/-- The projection window (one block, fetched at the first point only) holds that block at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The code window (fetched at every point) holds its block. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's triple -/

theorem hz2 : (![0, 0] : Fin 2 → Nat) = fun _ => 0 := funext fun a => by fin_cases a <;> rfl

set_option maxHeartbeats 1000000 in
/-- On whole staging memrefs, the projection's and the codes' at read contents and the output's at anything, the body
    runs to the continuation holding the inputs' as they were and the output's at the decoded product of the two:
    its one store covers the block, and its loads read the blocks whole. -/
theorem sound_kernel1 (c : Dev nD) (E : Set ℕ) (i : grid1.Coords)
    (arg1 : Memref sig .tc .vmem S128x256 .bf16) (harg1 : arg1.IsWhole) (arg2 : Memref sig .tc .vmem S1x2048 .i32) (harg2 : arg2.IsWhole)
    (arg3 : Memref sig .tc .vmem S128x2048 .f32) (harg3 : arg3.IsWhole)
    (x0 : Vec F S128x256 .bf16) (x1 : Vec F S1x2048 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x1 x0)) -∗ K ⟨⟩))
      ⊢ wp frame (wpE (defs₀ (F := F)) Variants.none c none) E (cc1__decode_matmul_kernel i arg1 harg1 arg2 harg2 arg3 harg3) K := by
  simp only [cc1__decode_matmul_kernel_eq_skeleton]; unfold cc1__decode_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2 inb_S128x2048_S128x2048_0_0 y⟩),
    View.canon_unit_zero hz2]
  simp only [View.readAt_eq_ld, View.ld_unit_zero (S := S1x2048) hz2, View.ld_unit_zero (S := S128x256) hz2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of @main: the projection region, the reshape of the codes on the host, the decode-and-select
  region. Between two items every unscoped buffer of the core is held at contents named by a fold through @main
  from the launch memory: a region's arrays at what its write-backs leave, a host line's result at its value.
  One launch over the three items gives, at the end, the result array at the second region's written-back contents
  and every argument array as launched.
-/
import proofs.«405978_j53876069761217_3_alg».proof.Proof.Gen.KernelIdeal.Launch
import proofs.«405978_j53876069761217_3_alg».proof.Proof.Gen.KernelIdeal.Skeleton
import proofs.«405978_j53876069761217_3_alg».proof.Proof.Gen.KernelIdeal.Points
import proofs.«405978_j53876069761217_3_alg».proof.Proof.KI.Region0
import proofs.«405978_j53876069761217_3_alg».proof.Proof.KI.Region1
import proofs.«405978_j53876069761217_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (the projection region's entry). -/
abbrev W0 : Dev nD → Valuation τ sig (Elt F) := fun c b => m (c, b)
abbrev V0 : (c : Dev nD) → (b : Ref sig .tc) → Buf (Elt F) ((c : Thread nD τ).loc b) := fun c b => W0 m c b
/-- At the projection region's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host reshape (the decode region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At the decode region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched: the reshape writes only its own result, a region only its output's array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := (W1_arr m c 1).trans (((dat0 (V0 m) c).arrAt_in 1 rfl _).trans (A_eq0 (V0 m) c 1))
    _ = m ((c : Thread nD τ).loc main_arg2) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- After the last point the accumulator's named contents are forgotten: the class invariant again. -/
theorem Phi_last (V : (c : Dev nD) → (b : Ref sig .tc) → Buf (Elt F) ((c : Thread nD τ).loc b)) (c : Dev nD) :
    (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS, Ho⟩, Hg⟩
  isplitl [HS Ho]
  · isplitl [HS]; · iexists _; iexact HS
    iexact Ho
  iexact Hg

/-! ## The regions as segments -/

set_option backward.isDefEq.respectTransparency.types false in
/-- Region 0 over the thread state: entered with every unscoped buffer at `W0`, left with them at `W1`. Its arrays
    are split out of the unscoped buffers and put back at what the write-backs leave; the generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_last (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its arrays
    are split out of the unscoped buffers and put back at what the write-backs leave; the generator register goes into
    the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    the final memory holds the result array at what the decode region's write-backs leave and each argument array
    as launched. -/
theorem run_all (ρ : Dev nD → PrngReg) : θ_run defs (onTc (τ := τ) (main (F := F))) ⟨m, fun _ => 0, ρ⟩ (fun r => ∀ c : Dev nD,
      r.2.mem ((c.tc : Thread nD τ).loc main_v2) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_arr m c 2),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

end Cert.KernelIdeal.Hand

end
-- ==== Proof.Spec.lean ====
/-
  The mathematics both programs compute, stated once over literal shapes at the ideal instance (a float an
  extended real). A 22-bit code word names a basis row (its low eight bits), a radius level (bits 8 to 19) and a
  sign (bit 20); the weight row it decodes to is  scale · basis[row]  with  scale = ± tanh (level · f32(1/4095)).
  The kernel first projects every input row onto all 256 basis rows and then, per output column, picks the
  projection at the named row and scales it; the reference scales the gathered basis row first and contracts last.
-/
import Idealize.ShloMosaic.PureOps.Ideal
import Idealize.ShloMosaic.PureOps.Ideal.Laws
import Idealize.ShloMosaic.Lib.ValueIdx

noncomputable section

namespace Cert.Vq

open Idealize.ShloMosaic Idealize.ShloMosaic.ValueIdx

/-- The basis row a code word names: its low eight bits, a number below 256. -/
def rowOf (w : BitVec 32) : Fin 256 :=
  ⟨(w &&& 255#32).toNat, by
    have h := Nat.and_le_right (n := w.toNat) (m := 255)
    rw [BitVec.toNat_and]
    exact Nat.lt_of_le_of_lt h (by decide)⟩

/-- The sign a code word names: minus one when bit 20 is set, else one. -/
def signOf (w : BitVec 32) : EReal :=
  Scalar.select (IntOp.cmpi .eq (IntOp.andi (w.sshiftRight' 20#32) 1#32) 1#32)
    (Ideal.ofBits .f32 0xBF800000#32) (Ideal.ofBits .f32 0x3F800000#32)

/-- The radius a code word names: its twelve level bits as a number, times the step f32(1/4095). -/
def radiusOf (w : BitVec 32) : EReal :=
  FloatOps.sitofp (F := Ideal) .f32 (IntOp.andi (w.sshiftRight' 8#32) 4095#32) * Ideal.ofBits .f32 0x39800801#32

/-- The signed scale a code word names: sign · tanh radius. -/
def scaleOf (w : BitVec 32) : EReal := signOf w * Ideal.tanh (radiusOf w)

/-- Every input row projected on every basis row: the contraction over the 4096 input features. -/
def proj (x : (⟨2, ![128, 4096]⟩ : Shape).Idx → EReal) (basis : (⟨2, ![256, 4096]⟩ : Shape).Idx → EReal) :
    (⟨2, ![128, 256]⟩ : Shape).Idx → EReal :=
  fun j => ∑ i : Fin 4096, x (ix2 (j 0) i) * basis (ix2 (j 1) i)

/-- Output column o takes the projection at the row its code names, times the code's scale. -/
def decodeMul (p : (⟨2, ![128, 256]⟩ : Shape).Idx → EReal) (code : Fin 8192 → BitVec 32) :
    (⟨2, ![128, 8192]⟩ : Shape).Idx → EReal :=
  fun j => p (ix2 (j 0) (rowOf (code (j 1)))) * scaleOf (code (j 1))

/-- What the kernel computes: project, then pick and scale. -/
def kernelSpec (x : (⟨2, ![128, 4096]⟩ : Shape).Idx → EReal) (code : Fin 8192 → BitVec 32)
    (basis : (⟨2, ![256, 4096]⟩ : Shape).Idx → EReal) : (⟨2, ![128, 8192]⟩ : Shape).Idx → EReal :=
  decodeMul (proj x basis) code

/-- What the reference computes: scale the gathered basis row, then contract with the input row. -/
def refSpec (x : (⟨2, ![128, 4096]⟩ : Shape).Idx → EReal) (code : Fin 8192 → BitVec 32)
    (basis : (⟨2, ![256, 4096]⟩ : Shape).Idx → EReal) : (⟨2, ![128, 8192]⟩ : Shape).Idx → EReal :=
  fun j => ∑ i : Fin 4096, x (ix2 (j 0) i) * (scaleOf (code (j 1)) * basis (ix2 (rowOf (code (j 1))) i))

end Cert.Vq

end
-- ==== Proof.KI.Value0.lean ====
/-
  The value of the projection region at the ideal instance. At grid point t = 4·i + k the scratch accumulator holds,
  for input row b and basis row 128·i + j, the sum of x[b, m] · basis[128·i + j, m] over the columns m of the column
  blocks 0 … k; at k = 3 that is the whole contraction over the 4096 columns, which the point rounds (the identity on
  extended reals) into output block i, and the two output blocks cover the [128, 256] array.
-/
import proofs.«405978_j53876069761217_3_alg».proof.Proof.KI.Data0
import proofs.«405978_j53876069761217_3_alg».proof.Proof.Spec
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

/-! ## The block product at an index -/

/-- The dimension numbers of the block product: both operands contract their axis 1 of 1024 columns. -/
abbrev D0 : DotDims S128x1024 S128x1024 S128x128 := dot_S128x1024_S128x1024_S128x128_1_1_0_0_n_n

theorem lhs_D0_0 (i : S128x128.Idx) (q : dot_S128x1024_S128x1024_S128x128_1_1_0_0_n_n.contr.Idx) :
    (dot_S128x1024_S128x1024_S128x128_1_1_0_0_n_n.lhsIdx i q 0).val = (i 0).val := by
  unfold DotDims.lhsIdx
  rw [dif_neg (show ¬(0 : Fin S128x1024.rank) ∈ dot_S128x1024_S128x1024_S128x128_1_1_0_0_n_n.lhsBatch by decide), dif_pos (show (0 : Fin S128x1024.rank) ∈ dot_S128x1024_S128x1024_S128x128_1_1_0_0_n_n.lhsNonContracting by decide)]
  rfl
theorem lhs_D0_1 (i : S128x128.Idx) (q : dot_S128x1024_S128x1024_S128x128_1_1_0_0_n_n.contr.Idx) :
    (dot_S128x1024_S128x1024_S128x128_1_1_0_0_n_n.lhsIdx i q 1).val = (q ⟨0, by decide⟩).val :=
  dot_S128x1024_S128x1024_S128x128_1_1_0_0_n_n.lhsIdx_val_of_single rfl i q
theorem rhs_D0_0 (i : S128x128.Idx) (q : dot_S128x1024_S128x1024_S128x128_1_1_0_0_n_n.contr.Idx) :
    (dot_S128x1024_S128x1024_S128x128_1_1_0_0_n_n.rhsIdx i q 0).val = (i 1).val := by
  unfold DotDims.rhsIdx
  rw [dif_neg (show ¬(0 : Fin S128x1024.rank) ∈ dot_S128x1024_S128x1024_S128x128_1_1_0_0_n_n.rhsBatch by decide), dif_pos (show (0 : Fin S128x1024.rank) ∈ dot_S128x1024_S128x1024_S128x128_1_1_0_0_n_n.rhsNonContracting by decide)]
  rfl
theorem rhs_D0_1 (i : S128x128.Idx) (q : dot_S128x1024_S128x1024_S128x128_1_1_0_0_n_n.contr.Idx) :
    (dot_S128x1024_S128x1024_S128x128_1_1_0_0_n_n.rhsIdx i q 1).val = (q ⟨0, by decide⟩).val :=
  dot_S128x1024_S128x1024_S128x128_1_1_0_0_n_n.rhsIdx_val_of_single rfl i q

/-- The block product of two [128, 1024] blocks at (p, q): row p of the first against row q of the second. -/
theorem matmul_D0_apply (x b : FVec Ideal S128x1024 .bf16) (p q : Fin 128) :
    FloatOps.matmul dot_S128x1024_S128x1024_S128x128_1_1_0_0_n_n none x b (constant (F := Ideal) S128x128 .f32 0x00000000#32) (ix2 p q)
      = ∑ l : Fin 1024, x (ix2 p l) * b (ix2 q l) := by
  rw [Ideal.matmul_constant_zero_apply, ← Equiv.sum_comp (ValueIdx.contrEquiv1 dot_S128x1024_S128x1024_S128x128_1_1_0_0_n_n 1024 rfl rfl).symm]
  refine Finset.sum_congr rfl fun k _ => ?_
  have hk := ValueIdx.contrEquiv1_symm_val dot_S128x1024_S128x1024_S128x128_1_1_0_0_n_n 1024 rfl rfl k
  have el : dot_S128x1024_S128x1024_S128x128_1_1_0_0_n_n.lhsIdx (ix2 p q) ((ValueIdx.contrEquiv1 dot_S128x1024_S128x1024_S128x128_1_1_0_0_n_n 1024 rfl rfl).symm k) = ix2 p k := funext fun a => Fin.ext (by
    match a with
    | ⟨0, _⟩ => exact lhs_D0_0 _ _
    | ⟨1, _⟩ => exact (lhs_D0_1 _ _).trans hk)
  have er : dot_S128x1024_S128x1024_S128x128_1_1_0_0_n_n.rhsIdx (ix2 p q) ((ValueIdx.contrEquiv1 dot_S128x1024_S128x1024_S128x128_1_1_0_0_n_n 1024 rfl rfl).symm k) = ix2 q k := funext fun a => Fin.ext (by
    match a with
    | ⟨0, _⟩ => exact rhs_D0_0 _ _
    | ⟨1, _⟩ => exact (rhs_D0_1 _ _).trans hk)
  rw [el, er]

/-- The accumulating payload at (p, q): what was there plus the block product; the roundings to bf16 are the identity. -/
theorem pay2_apply (x b : Vec Ideal S128x1024 .f32) (a : Vec Ideal S128x128 .f32) (p q : Fin 128) :
    k0_pay2 (F := Ideal) x b a (ix2 p q) = a (ix2 p q) + ∑ l : Fin 1024, x (ix2 p l) * b (ix2 q l) := by
  unfold k0_pay2
  refine (congrFun (shapeCast_self _ _) (ix2 p q)).trans ?_
  refine (addf_apply _ _ _).trans ?_
  exact congrArg (a (ix2 p q) + ·) (matmul_D0_apply _ _ p q)

/-- The reset payload is zero everywhere. -/
theorem pay1_apply (p q : Fin 128) : k0_pay1 (F := Ideal) (ix2 p q) = 0 := by
  unfold k0_pay1
  refine (congrFun (shapeCast_self _ _) (ix2 p q)).trans ?_
  exact Ideal.ofBits_zero_f32

/-- The rounding payload is the identity. -/
theorem pay3_apply (a : Vec Ideal S128x128 .f32) (p q : Fin 128) : k0_pay3 (F := Ideal) a (ix2 p q) = a (ix2 p q) := rfl

/-! ## The blocks the region reads -/

variable (V : (c : Dev nD) → (b : Ref sig .tc) → Buf (Elt Ideal) ((c : Thread nD τ).loc b))

/-- The printed index maps, decided over the grid: point t = 4·i + k reads column block k of the input, block
    (i, k) of the basis, and holds output block (0, i). -/
theorem idx_facts0 : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = 0 ∧ win0_2.index t (1 : Fin 2) = t.val / 4 :=
  (by decide +kernel : ∀ t : Fin grid0.N, _)

/-- Column l of column block k, among the 4096 columns. -/
abbrev colOf (k : ℕ) (l : Fin 1024) : Fin 4096 := ⟨(1024 * k + l.val) % 4096, Nat.mod_lt _ (by decide)⟩

/-- Row q of row block i, among the 256 basis rows. -/
abbrev rowOfBlk (i : ℕ) (q : Fin 128) : Fin 256 := ⟨(128 * i + q.val) % 256, Nat.mod_lt _ (by decide)⟩

/-- The input's block at point t: all 128 rows, the columns of column block t mod 4. -/
theorem xblk_apply (c : Dev nD) (t : Fin cfg0.N) (p : Fin 128) (l : Fin 1024) :
    (iblk0 V c 0 t : Vec Ideal S128x1024 .f32) (ix2 p l)
      = (V c main_arg0 : S128x4096.Idx → EReal) (ix2 p (colOf (t.val % 4) l)) := by
  obtain ⟨e0, e1, e2, e3, e4, e5⟩ := idx_facts0 t
  have hN : cfg0.N = 8 := N_0
  have ht := t.isLt
  show V c main_arg0 (((cfg0.win 0).blk t).view.emb (ix2 p l)) = V c main_arg0 _
  congr 1
  funext a
  apply Fin.ext
  match a with
  | ⟨0, _⟩ => show win0_0.index t (0 : Fin 2) * 128 + 1 * p.val = p.val; omega
  | ⟨1, _⟩ => show win0_0.index t (1 : Fin 2) * 1024 + 1 * l.val = (1024 * (t.val % 4) + l.val) % 4096; omega

/-- The basis' block at point t: the rows of row block t div 4, the columns of column block t mod 4. -/
theorem bblk_apply (c : Dev nD) (t : Fin cfg0.N) (q : Fin 128) (l : Fin 1024) :
    (iblk0 V c 1 t : Vec Ideal S128x1024 .f32) (ix2 q l)
      = (V c main_arg2 : S256x4096.Idx → EReal) (ix2 (rowOfBlk (t.val / 4) q) (colOf (t.val % 4) l)) := by
  obtain ⟨e0, e1, e2, e3, e4, e5⟩ := idx_facts0 t
  have hN : cfg0.N = 8 := N_0
  have ht := t.isLt
  show V c main_arg2 (((cfg0.win 1).blk t).view.emb (ix2 q l)) = V c main_arg2 _
  congr 1
  funext a
  apply Fin.ext
  match a with
  | ⟨0, _⟩ => show win0_1.index t (0 : Fin 2) * 128 + 1 * q.val = (128 * (t.val / 4) + q.val) % 256; omega
  | ⟨1, _⟩ => show win0_1.index t (1 : Fin 2) * 1024 + 1 * l.val = (1024 * (t.val % 4) + l.val) % 4096; omega

/-! ## The accumulator, point by point -/

/-- Input row p against basis row (i, q) over the 1024 columns of column block k. -/
def blkSum (x : S128x4096.Idx → EReal) (bs : S256x4096.Idx → EReal) (i k : ℕ) (p q : Fin 128) : EReal :=
  ∑ l : Fin 1024, x (ix2 p (colOf k l)) * bs (ix2 (rowOfBlk i q) (colOf k l))

/-- The same over the column blocks 0 … k, added in the order the points add them, starting from zero. -/
def partSum (x : S128x4096.Idx → EReal) (bs : S256x4096.Idx → EReal) (i : ℕ) : ℕ → Fin 128 → Fin 128 → EReal
  | 0, p, q => 0 + blkSum x bs i 0 p q
  | k + 1, p, q => partSum x bs i k p q + blkSum x bs i (k + 1) p q

theorem partSum_zero (x : S128x4096.Idx → EReal) (bs : S256x4096.Idx → EReal) (i : ℕ) (p q : Fin 128) :
    partSum x bs i 0 p q = 0 + blkSum x bs i 0 p q := rfl

theorem partSum_succ (x : S128x4096.Idx → EReal) (bs : S256x4096.Idx → EReal) (i k : ℕ) (p q : Fin 128) :
    partSum x bs i (k + 1) p q = partSum x bs i k p q + blkSum x bs i (k + 1) p q := rfl

/-- One point's step at (p, q): what the accumulator held plus the point's block product. -/
theorem pay2_blk (c : Dev nD) (t : Fin cfg0.N) (a : Vec Ideal S128x128 .f32) (p q : Fin 128) :
    k0_pay2 (F := Ideal) (iblk0 V c 0 t) (iblk0 V c 1 t) a (ix2 p q)
      = a (ix2 p q) + blkSum (V c main_arg0) (V c main_arg2) (t.val / 4) (t.val % 4) p q := by
  refine (pay2_apply (iblk0 V c 0 t) (iblk0 V c 1 t) a p q).trans ?_
  refine congrArg (a (ix2 p q) + ·) ?_
  unfold blkSum
  refine Finset.sum_congr rfl fun l _ => ?_
  exact congrArg₂ (· * ·) (xblk_apply V c t p l) (bblk_apply V c t q l)

/-- After point n = 4·i + k the accumulator holds the partial sums over the column blocks 0 … k of row block i. -/
theorem acc0_apply (c : Dev nD) (n : ℕ) : ∀ (hn : n < cfg0.N) (p q : Fin 128),
    acc0 V c n hn (ix2 p q) = partSum (V c main_arg0) (V c main_arg2) (n / 4) (n % 4) p q := by
  induction n with
  | zero =>
    intro hn p q
    refine (congrFun (acc0_reset V c ⟨0, hn⟩ rfl) (ix2 p q)).trans ?_
    refine (pay2_blk V c ⟨0, hn⟩ (k0_pay1 (F := Ideal)) p q).trans ?_
    rw [pay1_apply]
    rfl
  | succ n ih =>
    intro hn p q
    by_cases h : (n + 1) % 4 = 0
    · refine (congrFun (acc0_reset V c ⟨n + 1, hn⟩ h) (ix2 p q)).trans ?_
      refine (pay2_blk V c ⟨n + 1, hn⟩ (k0_pay1 (F := Ideal)) p q).trans ?_
      rw [pay1_apply]
      show 0 + blkSum _ _ ((n + 1) / 4) ((n + 1) % 4) p q = partSum _ _ ((n + 1) / 4) ((n + 1) % 4) p q
      rw [h]
      rfl
    · refine (congrFun (acc0_step V c ⟨n + 1, hn⟩ h) (ix2 p q)).trans ?_
      refine (pay2_blk V c ⟨n + 1, hn⟩ _ p q).trans ?_
      show acc0 V c n _ (ix2 p q) + blkSum _ _ ((n + 1) / 4) ((n + 1) % 4) p q = partSum _ _ ((n + 1) / 4) ((n + 1) % 4) p q
      rw [ih (Nat.lt_of_succ_lt hn) p q]
      have e1 : (n + 1) / 4 = n / 4 := by omega
      have e2 : (n + 1) % 4 = n % 4 + 1 := by omega
      rw [e1, e2]
      rfl

/-- The four column blocks, added in order from zero, are the whole contraction over the 4096 columns. -/
theorem partSum_three (x : S128x4096.Idx → EReal) (bs : S256x4096.Idx → EReal) (i : ℕ) (p q : Fin 128) :
    partSum x bs i 3 p q = ∑ m : Fin 4096, x (ix2 p m) * bs (ix2 (rowOfBlk i q) m) := by
  have hsplit : ∑ m : Fin 4096, x (ix2 p m) * bs (ix2 (rowOfBlk i q) m)
      = ∑ kl : Fin 4 × Fin 1024, x (ix2 p (finProdFinEquiv kl)) * bs (ix2 (rowOfBlk i q) (finProdFinEquiv kl)) :=
    (Equiv.sum_comp (finProdFinEquiv (m := 4) (n := 1024)) (fun m : Fin 4096 => x (ix2 p m) * bs (ix2 (rowOfBlk i q) m))).symm
  have hcol : ∀ (k : Fin 4) (l : Fin 1024), (finProdFinEquiv (k, l) : Fin 4096) = colOf k.val l := fun k l =>
    Fin.ext (by show l.val + 1024 * k.val = (1024 * k.val + l.val) % 4096; have := k.isLt; have := l.isLt; omega)
  rw [hsplit, Fintype.sum_prod_type, Fin.sum_univ_four]
  simp only [hcol]
  show ((0 + blkSum x bs i 0 p q + blkSum x bs i 1 p q) + blkSum x bs i 2 p q) + blkSum x bs i 3 p q = _
  rw [zero_add]
  rfl

/-! ## What is written back, and the array -/

/-- An index of the output array is in point t's block iff each coordinate is in the block's range on its axis. -/
theorem mem_blk0 (t : Fin cfg0.N) (i : S128x256.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- A point that writes the output back (k = 3) writes its block of the projection: the accumulator there holds all
    four column blocks, and the rounding is the identity. -/
theorem flushed0_eq (c : Dev nD) (t : Fin cfg0.N) (hf : (cfg0.win 2).flush t = true) :
    (dat0 V c).flushed 2 t
      = ((cfg0.win 2).blk t).view.read (Elt Ideal) (Cert.Vq.proj (V c main_arg0) (V c main_arg2)) := by
  have h3 : t.val % 4 = 3 := (flush0_2 t).mp hf
  obtain ⟨e0, e1, e2, e3, e4, e5⟩ := idx_facts0 t
  have hN : cfg0.N = 8 := N_0
  have ht := t.isLt
  show (cfg0.win 2).cut (grid0.coords t) ((dat0 V c).after 2 t) = _
  rw [after0_2]
  funext j
  obtain ⟨p, q, rfl⟩ : ∃ (p q : Fin 128), j = ix2 p q := ⟨j 0, j 1, eq_ix2 j⟩
  have hemb : ((cfg0.win 2).blk t).view.emb (ix2 p q) = (ix2 p (rowOfBlk (t.val / 4) q) : S128x256.Idx) := by
    funext a
    apply Fin.ext
    match a with
    | ⟨0, _⟩ => show win0_2.index t (0 : Fin 2) * 128 + 1 * p.val = p.val; omega
    | ⟨1, _⟩ => show win0_2.index t (1 : Fin 2) * 128 + 1 * q.val = (128 * (t.val / 4) + q.val) % 256; omega
  show k0_pay3 (F := Ideal) (acc0 V c t.val t.isLt) (ix2 p q)
    = Cert.Vq.proj (V c main_arg0) (V c main_arg2) (((cfg0.win 2).blk t).view.emb (ix2 p q))
  rw [hemb]
  refine (pay3_apply _ p q).trans ?_
  refine (acc0_apply V c t.val t.isLt p q).trans ?_
  rw [h3]
  exact partSum_three _ _ _ p q

/-- The two written-back blocks (columns 0 … 127 at point 3, 128 … 255 at point 7) cover the output array. -/
theorem cover0 (i : S128x256.Idx) :
    ∃ t : Fin cfg0.N, (cfg0.win 2).flush t = true ∧ i ∈ ((cfg0.win 2).blk t).view.set := by
  have hN : cfg0.N = 8 := N_0
  have hi0 : (i 0).val < 128 := (i 0).isLt
  have hi1 : (i 1).val < 256 := (i 1).isLt
  obtain ⟨t, ht⟩ : ∃ t : Fin cfg0.N, t.val = 4 * ((i 1).val / 128) + 3 := ⟨⟨4 * ((i 1).val / 128) + 3, by omega⟩, rfl⟩
  obtain ⟨e0, e1, e2, e3, e4, e5⟩ := idx_facts0 t
  refine ⟨t, (flush0_2 t).mpr (by omega), ?_⟩
  rw [mem_blk0]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- THE OUTPUT ARRAY after the region: every input row projected on every basis row. -/
theorem arr0_final (c : Dev nD) :
    (dat0 (F := Ideal) V c).arrAt 2 cfg0.N = Cert.Vq.proj (V c main_arg0) (V c main_arg2) :=
  (dat0 V c).arrAt_eq_of_cover 2 (Cert.Vq.proj (V c main_arg0) (V c main_arg2)) (flushed0_eq V c) cover0

end Cert.KernelIdeal.Hand

end
-- ==== Proof.KI.Value1.lean ====
/-
  The value of the decode-and-select region at the ideal instance. Per output column o the code word names a
  basis row and a signed scale; the one-hot matrix has the scale at (row, o) and zero elsewhere, so the product
  of the projection with it picks the projection at the named row and multiplies by the scale. The four blocks of
  2048 columns tile the 8192 columns of the result.
-/
import proofs.«405978_j53876069761217_3_alg».proof.Proof.KI.Data1
import proofs.«405978_j53876069761217_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

/-! ## The contraction's operand indices -/

theorem lhs_dec_0 (i : S128x2048.Idx) (q : dot_S128x256_S256x2048_S128x2048_1_0_0_1_n_n.contr.Idx) :
    (dot_S128x256_S256x2048_S128x2048_1_0_0_1_n_n.lhsIdx i q 0).val = (i 0).val := by
  unfold DotDims.lhsIdx
  rw [dif_neg (show ¬(0 : Fin S128x256.rank) ∈ dot_S128x256_S256x2048_S128x2048_1_0_0_1_n_n.lhsBatch by decide), dif_pos (show (0 : Fin S128x256.rank) ∈ dot_S128x256_S256x2048_S128x2048_1_0_0_1_n_n.lhsNonContracting by decide)]
  rfl
theorem lhs_dec_1 (i : S128x2048.Idx) (q : dot_S128x256_S256x2048_S128x2048_1_0_0_1_n_n.contr.Idx) :
    (dot_S128x256_S256x2048_S128x2048_1_0_0_1_n_n.lhsIdx i q 1).val = (q ⟨0, by decide⟩).val :=
  dot_S128x256_S256x2048_S128x2048_1_0_0_1_n_n.lhsIdx_val_of_single rfl i q
theorem rhs_dec_0 (i : S128x2048.Idx) (q : dot_S128x256_S256x2048_S128x2048_1_0_0_1_n_n.contr.Idx) :
    (dot_S128x256_S256x2048_S128x2048_1_0_0_1_n_n.rhsIdx i q 0).val = (q ⟨0, by decide⟩).val :=
  dot_S128x256_S256x2048_S128x2048_1_0_0_1_n_n.rhsIdx_val_of_single rfl i q
theorem rhs_dec_1 (i : S128x2048.Idx) (q : dot_S128x256_S256x2048_S128x2048_1_0_0_1_n_n.contr.Idx) :
    (dot_S128x256_S256x2048_S128x2048_1_0_0_1_n_n.rhsIdx i q 1).val = (i 1).val := by
  unfold DotDims.rhsIdx
  rw [dif_neg (show ¬(1 : Fin S256x2048.rank) ∈ dot_S128x256_S256x2048_S128x2048_1_0_0_1_n_n.rhsBatch by decide), dif_pos (show (1 : Fin S256x2048.rank) ∈ dot_S128x256_S256x2048_S128x2048_1_0_0_1_n_n.rhsNonContracting by decide)]
  rfl

/-! ## Words -/

/-- On the vector unit an arithmetic right shift by 8 or by 20 is the plain one. -/
theorem shrsi_8 (w : BitVec 32) : IntOp.shrsi .vector w 8#32 = w.sshiftRight' 8#32 := by
  unfold IntOp.shrsi; exact if_pos (by decide)
theorem shrsi_20 (w : BitVec 32) : IntOp.shrsi .vector w 20#32 = w.sshiftRight' 20#32 := by
  unfold IntOp.shrsi; exact if_pos (by decide)

/-- Row number k below 256 equals the word's low eight bits iff k is the row the word names. -/
theorem onehot_select (k : Fin 256) (w : BitVec 32) (A B : EReal) :
    Scalar.select (IntOp.cmpi .eq (BitVec.ofNat 32 k.val) (IntOp.andi w 255#32)) A B = if k = Cert.Vq.rowOf w then A else B := by
  show (if BitVec.ofBool (BitVec.ofNat 32 k.val == w &&& 255#32) = 1#1 then A else B) = _
  by_cases h : k = Cert.Vq.rowOf w
  · have e : BitVec.ofNat 32 k.val = w &&& 255#32 := by
      apply BitVec.eq_of_toNat_eq
      rw [BitVec.toNat_ofNat, h]
      exact Nat.mod_eq_of_lt (w &&& 255#32).isLt
    rw [if_pos h, e, beq_self_eq_true]; exact if_pos rfl
  · have e : ¬ BitVec.ofNat 32 k.val = w &&& 255#32 := by
      intro e; apply h; apply Fin.ext
      show k.val = (w &&& 255#32).toNat
      rw [← e, BitVec.toNat_ofNat]
      have := k.isLt
      exact (Nat.mod_eq_of_lt (by omega)).symm
    have e' : (BitVec.ofNat 32 k.val == w &&& 255#32) = false := beq_eq_false_iff_ne.mpr e
    rw [if_neg h, e']; exact if_neg (by decide)

theorem ofBits_zero_bf16 : Ideal.ofBits .bf16 0x0000#16 = 0 := by simp [Ideal.ofBits, Ideal.ieee]

/-! ## The one-hot matrix and the body's payload at an index -/

/-- The one-hot matrix at (k, o): the scale of column o where k is the row column o names, zero elsewhere. -/
theorem onehot_apply (idx : IVec S1x2048 32) (sc : FVec Ideal S1x2048 .bf16) (k : Fin 256) (o : Fin 2048) :
    select (cmpi .eq (iota .tc S256x2048 32 [0] iota_S256x2048_d0_w32) (broadcastTo S256x2048 idx broadcasts_S1x2048_S256x2048))
        (broadcastTo S256x2048 sc broadcasts_S1x2048_S256x2048) (broadcast S256x2048 (Scalar.ofBits (F := Ideal) .bf16 0x0000#16)) (ix2 k o)
      = Scalar.select (IntOp.cmpi .eq (BitVec.ofNat 32 k.val) (idx (ix2 (0 : Fin 1) o))) (sc (ix2 (0 : Fin 1) o)) (0 : EReal) := by
  show Scalar.select (IntOp.cmpi .eq (iota .tc S256x2048 32 [0] iota_S256x2048_d0_w32 (ix2 k o)) (broadcastTo S256x2048 idx broadcasts_S1x2048_S256x2048 (ix2 k o)))
        (broadcastTo S256x2048 sc broadcasts_S1x2048_S256x2048 (ix2 k o)) (Scalar.ofBits (F := Ideal) .bf16 0x0000#16) = _
  rw [iota_single_apply, broadcastTo_1b_ab_apply, broadcastTo_1b_ab_apply]
  show Scalar.select _ _ (Ideal.ofBits .bf16 0x0000#16) = _
  rw [ofBits_zero_bf16]

/-- The body's payload at (b, o): the projection at the row column o names, times the column's scale. -/
theorem pay_apply (cd : Vec Ideal S1x2048 .i32) (p : Vec Ideal S128x256 .bf16) (b : Fin 128) (o : Fin 2048) :
    k1_pay1 (F := Ideal) cd p (ix2 b o)
      = (p (ix2 b (Cert.Vq.rowOf (cd (ix2 (0 : Fin 1) o)))) : EReal) * Cert.Vq.scaleOf (cd (ix2 (0 : Fin 1) o)) := by
  unfold k1_pay1
  refine (Ideal.matmul_constant_zero_apply _ none _ _ (ix2 b o)).trans ?_
  rw [← Equiv.sum_comp (contrEquiv1 dot_S128x256_S256x2048_S128x2048_1_0_0_1_n_n 256 rfl rfl).symm]
  have el : ∀ k : Fin 256, dot_S128x256_S256x2048_S128x2048_1_0_0_1_n_n.lhsIdx (ix2 b o) ((contrEquiv1 dot_S128x256_S256x2048_S128x2048_1_0_0_1_n_n 256 rfl rfl).symm k) = ix2 b k := fun k => funext fun a => Fin.ext (by
    have hk := contrEquiv1_symm_val dot_S128x256_S256x2048_S128x2048_1_0_0_1_n_n 256 rfl rfl k
    match a with
    | ⟨0, _⟩ => exact lhs_dec_0 _ _
    | ⟨1, _⟩ => exact (lhs_dec_1 _ _).trans hk)
  have er : ∀ k : Fin 256, dot_S128x256_S256x2048_S128x2048_1_0_0_1_n_n.rhsIdx (ix2 b o) ((contrEquiv1 dot_S128x256_S256x2048_S128x2048_1_0_0_1_n_n 256 rfl rfl).symm k) = ix2 k o := fun k => funext fun a => Fin.ext (by
    have hk := contrEquiv1_symm_val dot_S128x256_S256x2048_S128x2048_1_0_0_1_n_n 256 rfl rfl k
    match a with
    | ⟨0, _⟩ => exact (rhs_dec_0 _ _).trans hk
    | ⟨1, _⟩ => exact rhs_dec_1 _ _)
  simp only [el, er, shapeCast_self]
  refine (Finset.sum_congr rfl fun k _ => congrArg (_ * ·) (onehot_apply _ _ k o)).trans ?_
  refine (Finset.sum_congr rfl fun k _ => congrArg (_ * ·) (onehot_select k (cd (ix2 (0 : Fin 1) o)) _ _)).trans ?_
  rw [Finset.sum_eq_single (Cert.Vq.rowOf (cd (ix2 (0 : Fin 1) o)))]
  · rw [if_pos rfl]
    refine congrArg (_ * ·) ?_
    show (Scalar.select (IntOp.cmpi .eq (IntOp.andi (IntOp.shrsi .vector (cd (ix2 (0 : Fin 1) o)) 20#32) 1#32) 1#32)
          (Ideal.ofBits .f32 0xBF800000#32) (Ideal.ofBits .f32 0x3F800000#32) : EReal)
        * Ideal.tanh (FloatOps.sitofp (F := Ideal) .f32 (IntOp.andi (IntOp.shrsi .vector (cd (ix2 (0 : Fin 1) o)) 8#32) 4095#32)
            * Ideal.ofBits .f32 0x39800801#32) = _
    rw [shrsi_8, shrsi_20]
    rfl
  · intro k _ hk
    rw [if_neg hk, mul_zero]
  · intro h; exact absurd (Finset.mem_univ _) h

/-- The same at any index of the block, against the whole arrays: where the projection block is the projection and
    the block's code word at the column is the array's code word at the column of the result. -/
theorem blk_value (P : Vec Ideal S128x256 .bf16) (A : S128x256.Idx → EReal) (cdb : Vec Ideal S1x2048 .i32)
    (code : S1x8192.Idx → BitVec 32) (j : S128x2048.Idx) (i : S128x8192.Idx) (hP : ∀ x, P x = A x)
    (hc : cdb (ix2 (0 : Fin 1) (j 1)) = code (ix2 (0 : Fin 1) (i 1))) (hb : (j 0).val = (i 0).val) :
    k1_pay1 (F := Ideal) cdb P j = Cert.Vq.decodeMul A (fun o => code (ix2 (0 : Fin 1) o)) i := by
  obtain ⟨b, o, rfl⟩ : ∃ (b : Fin 128) (o : Fin 2048), j = ix2 b o := ⟨j 0, j 1, eq_ix2 j⟩
  refine (pay_apply cdb P b o).trans ?_
  have hc' : cdb (ix2 (0 : Fin 1) o) = code (ix2 (0 : Fin 1) (i 1)) := hc
  have hb' : b = i 0 := Fin.ext hb
  subst hb'
  rw [hc', hP]
  rfl

/-! ## The blocks the body reads -/

/-- The block indices, decided over the four points: the projection's block is always (0, 0); the codes' and the
    result's blocks are (0, t). -/
theorem idx_facts1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

variable (V : (c : Dev nD) → (b : Ref sig .tc) → Buf (Elt Ideal) ((c : Thread nD τ).loc b))

/-- The projection's block at any point is the whole projection. -/
theorem iblk1_0_apply (c : Dev nD) (t : Fin cfg1.N) (x : S128x256.Idx) :
    (iblk1 (F := Ideal) V c 0 t : Vec Ideal S128x256 .bf16) x = (V c main_v0 : S128x256.Idx → EReal) x := by
  obtain ⟨e0, e1, -, -, -, -⟩ := idx_facts1 t
  unfold iblk1
  rw [View.read_apply]
  show V c main_v0 _ = V c main_v0 _
  congr 1
  funext a
  apply Fin.ext
  match a with
  | ⟨0, _⟩ => show win1_0.index t (0 : Fin 2) * 128 + 1 * (x 0).val = (x 0).val; rw [e0]; omega
  | ⟨1, _⟩ => show win1_0.index t (1 : Fin 2) * 256 + 1 * (x 1).val = (x 1).val; rw [e1]; omega

/-- The codes' block at point t holds the code words of columns 2048 t … 2048 t + 2047. -/
theorem iblk1_1_apply (c : Dev nD) (t : Fin cfg1.N) (x : S1x2048.Idx) (y : S1x8192.Idx)
    (hy : (y 1).val = t.val * 2048 + (x 1).val) :
    (iblk1 (F := Ideal) V c 1 t : Vec Ideal S1x2048 .i32) x = (V c main_v1 : S1x8192.Idx → BitVec 32) y := by
  obtain ⟨-, -, e0, e1, -, -⟩ := idx_facts1 t
  unfold iblk1
  rw [View.read_apply]
  show V c main_v1 _ = V c main_v1 _
  congr 1
  funext a
  apply Fin.ext
  match a with
  | ⟨0, _⟩ => show win1_1.index t (0 : Fin 2) * 1 + 1 * (x 0).val = (y 0).val; rw [e0]; have h1 : (x 0).val < 1 := (x 0).isLt; have h2 : (y 0).val < 1 := (y 0).isLt; omega
  | ⟨1, _⟩ => show win1_1.index t (1 : Fin 2) * 2048 + 1 * (x 1).val = (y 1).val; rw [e1, hy]; omega

/-! ## What each point writes back, the cover, and the array -/

/-- The result as one function of the arrays the region is entered with. -/
abbrev G1 (c : Dev nD) : S128x8192.Idx → EReal :=
  Cert.Vq.decodeMul (V c main_v0) (fun o => V c main_v1 (ix2 (0 : Fin 1) o))

/-- What point t writes back is block t of that function. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 (F := Ideal) V c).after 2 t) = _
  rw [after1_2]
  obtain ⟨-, -, -, -, e0, e1⟩ := idx_facts1 t
  funext j
  rw [View.read_apply]
  refine blk_value (iblk1 (F := Ideal) V c 0 t) (V c main_v0) (iblk1 (F := Ideal) V c 1 t) (V c main_v1) _ _ (iblk1_0_apply V c t) ?_ ?_
  · refine iblk1_1_apply V c t _ _ ?_
    show win1_2.index t (1 : Fin 2) * 2048 + 1 * (j 1).val = t.val * 2048 + (j 1).val
    rw [e1]; omega
  · show (j 0).val = win1_2.index t (0 : Fin 2) * 128 + 1 * (j 0).val
    rw [e0]; omega

/-- An index of the result is in point t's block iff each coordinate is in the block's range on its axis. -/
theorem mem_blk1 (t : Fin cfg1.N) (i : S128x8192.Idx) :
    i ∈ ((cfg1.win 2).blk t).view.set ↔ ∀ a : Fin 2, win1_2.index t a * S128x2048.size a ≤ (i a).val ∧ (i a).val < win1_2.index t a * S128x2048.size a + S128x2048.size a := by
  show i ∈ ((View.whole main_v2).slice (win1_2.rect t)).set ↔ _
  rw [View.set_slice_whole, Rect.mem_set_unit]
  exact Iff.rfl

/-- Column o lies in the block of point o / 2048, which is written back. -/
theorem cover1 (i : S128x8192.Idx) :
    ∃ t : Fin cfg1.N, (cfg1.win 2).flush t = true ∧ i ∈ ((cfg1.win 2).blk t).view.set := by
  have hi0 : (i 0).val < 128 := (i 0).isLt
  have hi1 : (i 1).val < 8192 := (i 1).isLt
  have hN : cfg1.N = 4 := N_1
  obtain ⟨t, ht⟩ : ∃ t : Fin cfg1.N, t.val = (i 1).val / 2048 := ⟨⟨(i 1).val / 2048, by rw [hN]; omega⟩, rfl⟩
  obtain ⟨-, -, -, -, e0, e1⟩ := idx_facts1 t
  refine ⟨t, flush1_2 t, ?_⟩
  rw [mem_blk1]
  intro a
  match a with
  | ⟨0, _⟩ => show win1_2.index t (0 : Fin 2) * 128 ≤ (i 0).val ∧ (i 0).val < win1_2.index t (0 : Fin 2) * 128 + 128; rw [e0]; omega
  | ⟨1, _⟩ => show win1_2.index t (1 : Fin 2) * 2048 ≤ (i 1).val ∧ (i 1).val < win1_2.index t (1 : Fin 2) * 2048 + 2048; rw [e1]; omega

/-- The result array after the region: every column's projection at its named row, times its scale. -/
theorem arr1_final (V : (c : Dev nD) → (b : Ref sig .tc) → Buf (Elt Ideal) ((c : Thread nD τ).loc b)) (c : Dev nD) :
    (dat1 (F := Ideal) V c).arrAt 2 cfg1.N = Cert.Vq.decodeMul (V c main_v0) (fun o => V c main_v1 (ix2 (0 : Fin 1) o)) :=
  (dat1 (F := Ideal) V c).arrAt_eq_of_cover 2 (G1 V c) (fun t _ => flushed1_eq V c t) (cover1)

end Cert.KernelIdeal.Hand

end
-- ==== Proof.KI.Bridge.lean ====
/-
  From the run to the mathematics. The result array after the run is the decode-and-select of what the second
  region found in its two input arrays: the projection the first region wrote back, and the codes as the host
  reshape laid them out in one row. Both are functions of the launch memory, so the result is the specification's
  function of the three argument arrays.
-/
import proofs.«405978_j53876069761217_3_alg».proof.Proof.Gen.KernelIdeal.Launch
import proofs.«405978_j53876069761217_3_alg».proof.Proof.Gen.KernelIdeal.Skeleton
import proofs.«405978_j53876069761217_3_alg».proof.Proof.Gen.KernelIdeal.Points
import proofs.«405978_j53876069761217_3_alg».proof.Proof.KI.Run
import proofs.«405978_j53876069761217_3_alg».proof.Proof.KI.Value0
import proofs.«405978_j53876069761217_3_alg».proof.Proof.KI.Value1
import proofs.«405978_j53876069761217_3_alg».proof.Proof.Spec
import Idealize.ShloMosaic.Lib.Pipeline.Value
import Idealize.ShloMosaic.Lib.ValueIdx
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx Idealize.ShloMosaic.StableHlo

variable (m : (ℓ : Loc nD τ sig) → Buf (Elt Ideal) ℓ)

/-- The codes laid out as one row of 8192: entry (0, o) is code o. -/
theorem codes_row_apply (x : (⟨S8192, .i32⟩ : BufTy).Contents (Elt Ideal)) (o : Fin 8192) :
    shapeCast S1x8192 x shapeCasts_S8192_S1x8192 (ix2 (0 : Fin 1) o) = x (ix1 o) :=
  shapeCast_apply x _ _ _ (by rw [Shape.rowMajor_val_one, Shape.rowMajor_val_two]; simp)

/-- The second region finds the projection array at what the first wrote back: the host reshape between them does
    not write it. -/
theorem V2_proj (c : Dev nD) :
    V2 m c main_v0 = Cert.Vq.proj (m ((c : Thread nD τ).loc main_arg0)) (m ((c : Thread nD τ).loc main_arg2)) :=
  calc V2 m c main_v0
    _ = W1 m c (Proc.devRef .tc main_v0) := StableHlo.after_of_writes_sub hostOps1 _ hostOps1_writes (by decide)
    _ = (dat0 (V0 m) c).arrAt 2 cfg0.N := W1_arr m c 2
    _ = Cert.Vq.proj (V0 m c main_arg0) (V0 m c main_arg2) := arr0_final (V0 m) c
    _ = _ := rfl

/-- It finds the code row at the reshape of the launch codes. -/
theorem V2_codes (c : Dev nD) :
    V2 m c main_v1 = shapeCast S1x8192 (m ((c : Thread nD τ).loc main_arg1)) shapeCasts_S8192_S1x8192 := by
  have e : W1 m c (Proc.devRef .tc main_arg1) = m ((c : Thread nD τ).loc main_arg1) := W1_of_ne m c main_arg1 (by decide)
  show StableHlo.after hostOps1 (W1 m c) (Proc.devRef .tc main_v1) = _
  after_results
  rw [e]
  rfl

/-- The result array the run leaves is the specification's function of the argument arrays. -/
theorem result_eq (c : Dev nD) :
    (dat1 (V2 m) c).arrAt 2 cfg1.N
      = Cert.Vq.kernelSpec (m ((c : Thread nD τ).loc main_arg0)) (fun o => m ((c : Thread nD τ).loc main_arg1) (ix1 o))
          (m ((c : Thread nD τ).loc main_arg2)) := by
  rw [arr1_final (V2 m) c, V2_proj m c, V2_codes m c]
  unfold Cert.Vq.kernelSpec
  refine congrArg _ (funext fun o => ?_)
  exact codes_row_apply _ o

end Cert.KernelIdeal.Hand

end
-- ==== Proof.RefValue.lean ====
/-
  The reference program read index by index. Its result at (b, o) is the contraction over the 4096 features of the
  input row b against the decoded weight row o: the code word's signed scale times the basis row the word's low
  byte names. The low byte is a number below 256, so the wrap of negative indices leaves it alone and the gather's
  clamp into [0, 255] is the identity.
-/
import proofs.«405978_j53876069761217_3_alg».proof.Proof.Spec
import proofs.«405978_j53876069761217_3_alg».proof.Proof.Gen.ReferenceIdeal.Read
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx
open Idealize.ShloMosaic.StableHlo.Predicate (toInt_eq_toNat_of_lt slt_iff_toNat)

/-! ## Words -/

/-- The low byte of a word is at most 255. -/
theorem low_le (w : BitVec 32) : (IntOp.andi w 255#32).toNat ≤ 255 := by
  unfold IntOp.andi
  rw [BitVec.toNat_and]
  exact Nat.and_le_right

/-- A low byte is never negative, so wrapping negative indices by 256 returns it unchanged. -/
theorem wrap_low (w : BitVec 32) :
    Scalar.select (IntOp.cmpi .slt (IntOp.andi w 255#32) 0#32) (IntOp.addi (IntOp.andi w 255#32) 256#32)
      (IntOp.andi w 255#32) = IntOp.andi w 255#32 := by
  have h := low_le w
  have hn : ¬ IntOp.cmpi .slt (IntOp.andi w 255#32) 0#32 = 1#1 := by
    rw [slt_iff_toNat (by omega) (by decide)]
    exact Nat.not_lt_zero _
  exact if_neg hn

/-- Read as a signed integer and clamped into [0, 255], a low byte is the row it names. -/
theorem clamp_low (w : BitVec 32) : min (IntOp.andi w 255#32).toInt.toNat 255 = (Cert.Vq.rowOf w).val := by
  have h := low_le w
  rw [toInt_eq_toNat_of_lt (by omega), Int.toNat_natCast, Nat.min_eq_left h]
  rfl

/-- The host's arithmetic shift right by an amount below the width is the word's own. -/
theorem shrsi_lt (w c : BitVec 32) (h : c.toNat < 32) : IntOp.shrsi .host w c = w.sshiftRight' c := by
  unfold IntOp.shrsi
  exact if_pos h

/-! ## The gather of basis rows at an index -/

/-- The gather's dimension numbers: operand [256, 4096], start indices [8192, 1], result [8192, 4096]. -/
abbrev G : GatherDims S256x4096 S8192x1 S8192x4096 := gather_S256x4096_S8192x1_S8192x4096_1_0_n_n_0_1_14096

/-- Result element (o, k) of the gather reads the table at row "start index o, read signed and clamped into
    [0, 255]" and column k: axis 0 is collapsed and named by the start index map, axis 1 is the offset axis. -/
theorem gather_apply (x : S256x4096.Idx → EReal) (idx : IVec S8192x1 32) (o : Fin 8192) (k : Fin 4096) :
    Host.gather G x idx (ix2 o k)
      = x (ix2 ⟨min (idx (ix2 o 0)).toInt.toNat 255, by omega⟩ k) := by
  unfold Host.gather
  congr 1
  funext a
  refine Fin.ext ?_
  match a with
  | ⟨0, _⟩ =>
    show G.start (ix2 o k) idx 0 + G.batchCoord (ix2 o k) 0 + G.offCoord (ix2 o k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix2 o k) ⟨List.idxOf (0 : Fin 2) G.startIndexMap,
        List.idxOf_lt_length_iff.2 (List.mem_singleton.mpr rfl)⟩ = ix2 o 0 := by
      funext c; refine Fin.ext ?_
      match c with
      | ⟨0, _⟩ => rfl
      | ⟨1, _⟩ => rfl
    rw [hsi]
    rfl
  | ⟨1, _⟩ =>
    show G.start (ix2 o k) idx 1 + G.batchCoord (ix2 o k) 1 + G.offCoord (ix2 o k) 1 = _
    rw [GatherDims.batchCoord_eq_zero _ _ _ List.not_mem_nil]
    unfold GatherDims.start
    rw [dif_neg (show ¬ (1 : Fin 2) ∈ G.startIndexMap by decide)]
    unfold GatherDims.offCoord
    rw [dif_pos (show (1 : Fin 2) ∈ G.sKept from
      (GatherDims.mem_sKept _ _).mpr ⟨by decide, List.not_mem_nil⟩), Nat.zero_add]
    rfl

/-! ## The reference's stages at an index -/

variable (x1 : (⟨S8192, .i32⟩ : BufTy).Contents (Elt Ideal))

/-- The broadcast scale at (o, k) is the code word's signed scale. -/
theorem scale_apply (o : Fin 8192) (k : Fin 4096) :
    val_main_v27 (F := Ideal) x1 (ix2 o k) = Cert.Vq.scaleOf (x1 (ix1 o)) := by
  rw [val_main_v27_apply, val_main_v19_apply]
  have hi : idx_main_v19 (idx_main_v27 (ix2 o k)) = ix1 o := by
    funext a; match a with | ⟨0, _⟩ => rfl
  rw [hi, val_main_v18_apply, val_main_v17_apply, val_main_v12_apply, val_main_v11_apply, val_main_v9_apply,
    val_main_v7_apply, val_main_v6_apply, val_main_c_2_apply, val_main_v8_apply, val_main_c_3_apply,
    val_main_v10_apply, val_main_c_4_apply, val_main_call0_v0_apply, val_main_cst_apply, val_main_call0_v1_apply,
    val_main_cst_5_apply, val_main_v16_apply, val_main_v15_apply, val_main_v13_apply, val_main_v5_apply,
    val_main_v3_apply, val_main_v2_apply, val_main_c_0_apply, val_main_v4_apply, val_main_c_1_apply,
    val_main_v14_apply, val_main_cst_6_apply]
  rw [shrsi_lt _ _ (by decide), shrsi_lt _ _ (by decide)]
  rfl

/-- The wrapped start index of output column o is the low byte of its code word. -/
theorem start_apply (o : Fin 8192) :
    val_main_v25 (F := Ideal) x1 (ix2 o 0) = IntOp.andi (x1 (ix1 o)) 255#32 := by
  rw [val_main_v25_apply]
  have hi : idx_main_v25 (ix2 o (0 : Fin 1)) = ix1 o := by
    funext a; match a with | ⟨0, _⟩ => rfl
  rw [hi, val_main_v24_apply, val_main_v21_apply, val_main_v23_apply, val_main_v1_apply, val_main_v0_apply,
    val_main_c_apply, val_main_v20_apply, val_main_c_7_apply, val_main_v22_apply, val_main_c_8_apply]
  exact wrap_low _

/-- The gathered basis row at (o, k) is the basis at the row the code word names. -/
theorem row_apply (x2 : (⟨S256x4096, .f32⟩ : BufTy).Contents (Elt Ideal)) (o : Fin 8192) (k : Fin 4096) :
    val_main_v26 (F := Ideal) x1 x2 (ix2 o k) = x2 (ix2 (Cert.Vq.rowOf (x1 (ix1 o))) k) := by
  unfold val_main_v26
  refine (gather_apply x2 (val_main_v25 (F := Ideal) x1) o k).trans ?_
  congr 2
  refine Fin.ext ?_
  show min (val_main_v25 (F := Ideal) x1 (ix2 o 0)).toInt.toNat 255 = _
  rw [start_apply]
  exact clamp_low _

/-- THE REFERENCE'S RESULT, index by index: the contraction of the input row with the decoded weight row. -/
theorem ref_eq (x0 : (⟨S128x4096, .f32⟩ : BufTy).Contents (Elt Ideal)) (x1 : (⟨S8192, .i32⟩ : BufTy).Contents (Elt Ideal))
    (x2 : (⟨S256x4096, .f32⟩ : BufTy).Contents (Elt Ideal)) :
    Read.val_main_v29 (F := Ideal) x0 x1 x2 = Cert.Vq.refSpec x0 (fun o => x1 (ix1 o)) x2 := by
  funext j
  obtain ⟨b, o, rfl⟩ : ∃ (b : Fin 128) (o : Fin 8192), j = ix2 b o := ⟨j 0, j 1, eq_ix2 j⟩
  rw [val_main_v29_apply]
  unfold Cert.Vq.refSpec
  refine Finset.sum_congr rfl fun k _ => ?_
  have hl : lidx_main_v29 (ix2 b o) k = ix2 b k := by
    funext a; match a with | ⟨0, _⟩ => rfl | ⟨1, _⟩ => rfl
  have hr : ridx_main_v29 (ix2 b o) k = ix2 o k := by
    funext a; match a with | ⟨0, _⟩ => rfl | ⟨1, _⟩ => rfl
  rw [hl, hr, val_main_v28_apply, scale_apply, row_apply]
  rfl

end Cert.ReferenceIdeal.RefValue

end
-- ==== Proof.Algebra.lean ====
/-
  The one algebraic fact the certificate rests on: over real entries, scaling after the contraction equals
  contracting against the scaled row,  (Σ_i x_i · b_i) · s = Σ_i x_i · (s · b_i).  On the extended reals the
  product does not distribute over sums at infinities, so the entries and the scale are first shown to be reals
  and the identity is proved in ℝ and carried back through the coercion.
-/
import proofs.«405978_j53876069761217_3_alg».proof.Proof.Spec

noncomputable section

namespace Cert.Vq

open Idealize.ShloMosaic Idealize.ShloMosaic.ValueIdx

/-- The coercion from the reals to the extended reals carries finite sums to finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern of minus one denotes minus one. -/
theorem negOne_bits : Ideal.ofBits .f32 0xBF800000#32 = ((-1 : ℝ) : EReal) := by
  simp [Ideal.ofBits, Ideal.ieee, -EReal.coe_mul]; norm_num

/-- The pattern of one denotes one. -/
theorem one_bits : Ideal.ofBits .f32 0x3F800000#32 = ((1 : ℝ) : EReal) := by
  simp [Ideal.ofBits, Ideal.ieee, -EReal.coe_mul]; norm_num

/-- The step pattern has exponent field 115, not the all-ones field, so it denotes a real. -/
theorem step_bits_real : ∃ r : ℝ, Ideal.ofBits .f32 0x39800801#32 = (r : EReal) := by
  simp [Ideal.ofBits, Ideal.ieee, -EReal.coe_mul]

/-- The sign is one of the two reals ±1. -/
theorem signOf_real (w : BitVec 32) : ∃ r : ℝ, signOf w = (r : EReal) := by
  unfold signOf Scalar.select
  split
  · exact ⟨-1, negOne_bits⟩
  · exact ⟨1, one_bits⟩

/-- The radius is an integer times a real step, a real. -/
theorem radiusOf_real (w : BitVec 32) : ∃ r : ℝ, radiusOf w = (r : EReal) := by
  obtain ⟨t, ht⟩ := step_bits_real
  refine ⟨((IntOp.andi (w.sshiftRight' 8#32) 4095#32).toInt : ℝ) * t, ?_⟩
  unfold radiusOf
  rw [ht, EReal.coe_mul]
  rfl

/-- The scale, a sign times the hyperbolic tangent of a real radius, is a real. -/
theorem scaleOf_real (w : BitVec 32) : ∃ r : ℝ, scaleOf w = (r : EReal) := by
  obtain ⟨a, ha⟩ := signOf_real w
  obtain ⟨b, hb⟩ := radiusOf_real w
  refine ⟨a * Real.tanh b, ?_⟩
  unfold scaleOf
  rw [ha, hb, Ideal.tanh_coe, EReal.coe_mul]

/-- Over real entries the kernel's order of operations and the reference's give the same matrix. -/
theorem kernelSpec_eq_refSpec (x : (⟨2, ![128, 4096]⟩ : Shape).Idx → EReal) (code : Fin 8192 → BitVec 32)
    (basis : (⟨2, ![256, 4096]⟩ : Shape).Idx → EReal)
    (hx : ∀ i, ∃ r : ℝ, x i = (r : EReal)) (hb : ∀ i, ∃ r : ℝ, basis i = (r : EReal)) :
    kernelSpec x code basis = refSpec x code basis := by
  funext j
  obtain ⟨s, hs⟩ := scaleOf_real (code (j 1))
  choose xr hxr using hx
  choose br hbr using hb
  show (∑ i : Fin 4096, x (ix2 (j 0) i) * basis (ix2 (rowOf (code (j 1))) i)) * scaleOf (code (j 1))
      = ∑ i : Fin 4096, x (ix2 (j 0) i) * (scaleOf (code (j 1)) * basis (ix2 (rowOf (code (j 1))) i))
  rw [hs]
  simp only [hxr, hbr, ← EReal.coe_mul]
  rw [← coe_finset_sum, ← coe_finset_sum, ← EReal.coe_mul, Finset.sum_mul]
  congr 1
  refine Finset.sum_congr rfl fun i _ => ?_
  ring

end Cert.Vq

end
-- ==== Proof.Finite.lean ====
/-
  From the printed precondition to the fact the algebra needs: every entry of the two float inputs is a real.
  The precondition is the conjunction of two "all entries have absolute value strictly below +∞"; a conjunction of
  bits that is one has both bits one, an all-reduction by "and" that is one has every element one, and an extended
  real whose absolute value lies strictly below +∞ is neither infinity.
-/
import proofs.«405978_j53876069761217_3_alg».proof.Pre_finite_inputs
import proofs.«405978_j53876069761217_3_alg».proof.Proof.Gen.Pre_finite_inputs
import Idealize.ShloMosaic.Lib.ReduceAll
import Idealize.ShloMosaic.Lib.ValueIdx
import Idealize.ShloMosaic.PureOps.Ideal

noncomputable section

namespace Cert.Vq.Finite

open Idealize.ShloMosaic Idealize.ShloMosaic.ValueIdx

/-- The scalar shape has exactly one index. -/
instance : Subsingleton Cert.Pre_finite_inputs.S_.Idx := ⟨fun a b => funext fun d => d.elim0⟩

/-- The pattern the precondition compares against denotes +∞. -/
theorem inf_bits : Ideal.ofBits .f32 0x7F800000#32 = ⊤ := by simp [Ideal.ofBits, Ideal.ieee]

/-- An extended real whose absolute value max x (-x) lies strictly below +∞ is a real: +∞ fails on x itself,
    -∞ fails on -x. -/
theorem real_of_abs_lt (x : EReal)
    (h : Ideal.cmp .olt (max x (-x)) (Ideal.ofBits .f32 0x7F800000#32) = 1#1) : ∃ r : ℝ, x = (r : EReal) := by
  rw [inf_bits] at h
  have hlt : max x (-x) < ⊤ := by
    by_contra hn
    simp [Ideal.cmp, hn] at h
  induction x using EReal.rec with
  | bot => simp at hlt
  | coe r => exact ⟨r, rfl⟩
  | top => simp at hlt

/-- The precondition holds only when every entry of the first and of the third input is a real. -/
theorem finite_of_pre [Cert.Pre_finite_inputs.Facts]
    (a0 : FVec Ideal Cert.Pre_finite_inputs.S128x4096 .f32) (a1 : IVec Cert.Pre_finite_inputs.S8192 32)
    (a2 : FVec Ideal Cert.Pre_finite_inputs.S256x4096 .f32)
    (h : Cert.Pre_finite_inputs.fn (F := Ideal) a0 a1 a2 = fun _ => 1#1) :
    (∀ i, ∃ r : ℝ, a0 i = (r : EReal)) ∧ (∀ i, ∃ r : ℝ, a2 i = (r : EReal)) := by
  have h0 := congrFun h ix0
  dsimp only [Cert.Pre_finite_inputs.fn] at h0
  change IntOp.andi _ _ = 1#1 at h0
  obtain ⟨h1, h2⟩ := IntOp.andi_eq_one.1 h0
  refine ⟨fun i => ?_, fun i => ?_⟩
  · exact real_of_abs_lt _ (Host.reduce_andi_all _ _ _ _ _ h1 i)
  · exact real_of_abs_lt _ (Host.reduce_andi_all _ _ _ _ _ h2 i)

end Cert.Vq.Finite

end
-- ==== Proof.lean ====
/-
  The certificate of a codebook-decoded linear layer. Each of the 8192 output columns has a 22-bit code naming a row
  of a 256-row basis, a radius level and a sign; its weight row is  scale · basis[row]  with
  scale = ± tanh (level · f32(1/4095)), and the layer is  out[b, o] = Σ_i x[b, i] · scale[o] · basis[row[o], i].

  The kernel never builds the weights. Its first region projects every input row onto all 256 basis rows,
  P = x · basisᵀ, accumulating four column blocks of 1024 into a scratch buffer; its second region decodes the codes
  and multiplies P by the scaled one-hot matrix whose column o has scale[o] at row[o] and zero elsewhere, so that
  out[b, o] = P[b, row[o]] · scale[o]. The reference decodes, gathers and scales the basis rows and contracts last.
  At the ideal instance the roundings to bf16 are the identity, a product with zero is zero, and sums regroup freely,
  so the kernel's result is (Σ_i x[b,i] · basis[row,i]) · scale and the reference's is Σ_i x[b,i] · (scale · basis[row,i]).
  These agree because every factor is a real: the inputs by the precondition, the scale because tanh of a real is
  one. That one use of distributivity is where finiteness enters.

  The three frames: both kernel programs by one launch over @main's three items (region, host reshape, region),
  which also names the result array for the value claim; the reference by its run read back. The ideal pass rewrote
  nothing, so the idealization claim has nothing to state.
-/
import proofs.«405978_j53876069761217_3_alg».proof.Defs
import proofs.«405978_j53876069761217_3_alg».proof.Proof.Gen.Kernel
import proofs.«405978_j53876069761217_3_alg».proof.Proof.Gen.KernelIdeal
import proofs.«405978_j53876069761217_3_alg».proof.Proof.Gen.ReferenceIdeal
import proofs.«405978_j53876069761217_3_alg».proof.Proof.Gen.Pre_finite_inputs
import proofs.«405978_j53876069761217_3_alg».proof.Proof.Gen.ReferenceIdeal.Run
import proofs.«405978_j53876069761217_3_alg».proof.Proof.Gen.ReferenceIdeal.Read
import proofs.«405978_j53876069761217_3_alg».proof.Proof.K.Run
import proofs.«405978_j53876069761217_3_alg».proof.Proof.KI.Run
import proofs.«405978_j53876069761217_3_alg».proof.Proof.KI.Bridge
import proofs.«405978_j53876069761217_3_alg».proof.Proof.RefValue
import proofs.«405978_j53876069761217_3_alg».proof.Proof.Algebra
import proofs.«405978_j53876069761217_3_alg».proof.Proof.Finite
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ =>
  (θ_run (Cert.Kernel.defs (F := Bits)) _ _).mono (fun _ h c => (h c).2) (Cert.Kernel.Hand.run_all (F := Bits) m ρ)

/-- So does the idealized kernel. -/
theorem frame_ki : Cert.frame_KernelIdeal := fun m ρ _ =>
  (θ_run (Cert.KernelIdeal.defs (F := Ideal)) _ _).mono (fun _ h c => (h c).2) (Cert.KernelIdeal.Hand.run_all (F := Ideal) m ρ)

/-- And the reference: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The ideal pass rewrote no operation. -/
theorem preserves : Cert.preserves_Kernel_KernelIdeal := trivial

/-- Both idealized programs end with the same result array: the kernel's is project-then-pick-and-scale of its
    arguments, the reference's is scale-the-gathered-row-then-contract of its own, the arguments agree, and over
    real entries the two orders of operation give one matrix. -/
theorem algebraic : Cert.algebraic_KernelIdeal_ReferenceIdeal := by
  intro m ρ m' ρ' hpre hagree
  refine ⟨fun c => (Cert.KernelIdeal.Hand.dat1 (Cert.KernelIdeal.Hand.V2 m) c).arrAt 2 Cert.KernelIdeal.cfg1.N,
    Cert.KernelIdeal.Hand.run_all (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨hx, hb⟩ := Cert.Vq.Finite.finite_of_pre _ _ _ (hpre c)
  rw [Cert.ReferenceIdeal.Read.val_main_v29_eq, Cert.ReferenceIdeal.RefValue.ref_eq, (hagree c).1, (hagree c).2.1,
    (hagree c).2.2]
  exact ((Cert.KernelIdeal.Hand.result_eq m c).trans (Cert.Vq.kernelSpec_eq_refSpec _ _ _ hx hb)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
